-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S100000x512 : Shape := ⟨2, ![100000, 512]⟩
abbrev S1024 : Shape := ⟨1, ![1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1024x512 .f32) (main_arg1 : FVec F S100000x512 .f32) (main_arg2 : IVec S1024 32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg2 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v8 main_v11
  let main_c_4 : IVec S_ 32 := constantI S_ 32 100000#32
  let main_v13 : IVec S1024 32 := broadcastInDim S1024 ![] bcast_S_S1024 main_c_4
  let main_v14 : IVec S1024 1 := cmpi .slt main_arg2 main_v13
  let main_c_5 : IVec S_ 1 := constantI S_ 1 1#1
  let main_v15 : IVec S_ 1 := (fun x v => Host.reduce IntOp.andi x v reducesTo_S1024_S_d0 h_S_) main_v14 main_c_5
  fn_part1 (F := F) main_v12 main_v15
-- ==== Kernel.lean ====
abbrev S1024x512 : Shape := ⟨2, ![1024, 512]⟩
abbrev S100000x512 : Shape := ⟨2, ![100000, 512]⟩
abbrev S1024 : Shape := ⟨1, ![1024]⟩
abbrev S1024x1 : Shape := ⟨2, ![1024, 1]⟩
abbrev S512x512 : Shape := ⟨2, ![512, 512]⟩
abbrev S1000x512 : Shape := ⟨2, ![1000, 512]⟩
abbrev S512x1 : Shape := ⟨2, ![512, 1]⟩
abbrev S512 : Shape := ⟨1, ![512]⟩
abbrev S1000 : Shape := ⟨1, ![1000]⟩
abbrev S1000x1 : Shape := ⟨2, ![1000, 1]⟩
abbrev S512x1000 : Shape := ⟨2, ![512, 1000]⟩
abbrev S_ : Shape := ⟨0, ![]⟩

abbrev nBuf : Space → Nat
  | .hbm => 9
  | .vmem => 11
  | .smem => 0
  | _ => 0

abbrev bufTy : (tb : Table) → Fin (tcTables nBuf tb) → BufTy
  | .hbm, ⟨0, _⟩ => ⟨S1024x512, .f32⟩
  | .hbm, ⟨1, _⟩ => ⟨S100000x512, .f32⟩
  | .hbm, ⟨2, _⟩ => ⟨S1024, .i32⟩
  | .hbm, ⟨3, _⟩ => ⟨S1024x1, .i32⟩
  | .hbm, ⟨4, _⟩ => ⟨S1024x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S1000x512, .f32⟩
  | .local _ .vmem, ⟨3, _⟩ => ⟨S1000x512, .f32⟩
  | .local _ .vmem, ⟨4, _⟩ => ⟨S512x1, .i32⟩
  | .local _ .vmem, ⟨5, _⟩ => ⟨S512x1, .i32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 100], ![false, false]⟩

def k0_cond2 (i : grid0.Coords) : BitVec 1 :=
  let arg1 : BitVec 32 := BitVec.ofNat 32 (i 1).val
  let c99_i32 : BitVec 32 := 99#32
  let v83 : BitVec 1 := Scalar.cmpi .eq arg1 c99_i32
  let v84 : BitVec 32 := Scalar.extui v83
  let c0_i32_36 : BitVec 32 := 0#32
  let v85 : BitVec 1 := Scalar.cmpi .ne v84 c0_i32_36
  v85

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1024_S1024x1 : S1024.ShapeCasts S1024x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  inb_S1000x512_S1000x512_0_0 : ∀ a, (![0, 0] : Fin 2 → Nat) a + S1000x512.size a ≤ S1000x512.size a
  h_S1000x512 : 0 < S1000x512.numel
  reduces_S1000x512_S1000 : S1000x512.Reduces [1] S1000
  shapeCasts_S1000_S1000x1 : S1000.ShapeCasts S1000x1
  broadcasts_S1000x1_S1000x512 : S1000x1.Broadcasts S1000x512
  bitsLt_bf16_f32 : FTy.bits .bf16 < FTy.bits .f32
  iota_S512x1000_d1_w32 : S512x1000.Iotas .tc 32 [1]
  broadcasts_S512x1_S512x1000 : S512x1.Broadcasts S512x1000
  reduces_S512x1000_S512 : S512x1000.Reduces [1] S512
  reducesTo_S1024x1_S_d0_1 : S1024x1.ReducesTo [0, 1] S_
  h_S_ : 0 < S_.numel
  dot_S512x512_S1000x512_S512x1000_1_1_0_0_n_n_wf : DotDims.WF S512x512 S1000x512 S512x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S1024x512.size a
  hwx0_0 : ∀ i : grid0.Coords, EltTy.bits .f32 = 32 ∨ (Rect.block (s := S1024x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S100000x512.size a
  hwx0_1 : ∀ i : grid0.Coords, EltTy.bits .f32 = 32 ∨ (Rect.block (s := S100000x512) S1000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S1024x1.size a
  hwx0_2 : ∀ i : grid0.Coords, EltTy.bits .i32 = 32 ∨ (Rect.block (s := S1024x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S1024x1.size a
  hwx0_3 : ∀ i : grid0.Coords, EltTy.bits .f32 = 32 ∨ (Rect.block (s := S1024x1) S512x1.size (cc0_transform_3 i) (hinb0_3 i)).WholeWords (EltTy.packing .f32)

variable [Facts₀]

def dot_S512x512_S1000x512_S512x1000_1_1_0_0_n_n : DotDims S512x512 S1000x512 S512x1000 where
  lhsContracting := [1]
  rhsContracting := [1]
  lhsNonContracting := [0]
  rhsNonContracting := [0]
  lhsBatch := []
  rhsBatch := []
  wf := dot_S512x512_S1000x512_S512x1000_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x512 : Shape := ⟨2, ![1024, 512]⟩
abbrev S100000x512 : Shape := ⟨2, ![100000, 512]⟩
abbrev S1024 : Shape := ⟨1, ![1024]⟩
abbrev S_ : Shape := ⟨0, ![]⟩
abbrev S1024x1 : Shape := ⟨2, ![1024, 1]⟩
abbrev S100000 : Shape := ⟨1, ![100000]⟩
abbrev S100000x1 : Shape := ⟨2, ![100000, 1]⟩
abbrev S512x100000 : Shape := ⟨2, ![512, 100000]⟩
abbrev S1024x100000 : Shape := ⟨2, ![1024, 100000]⟩
abbrev S1x100000 : Shape := ⟨2, ![1, 100000]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 111
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S100000x512, .f32⟩
  | .hbm, ⟨2, _⟩ => ⟨S1024, .i32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S100000x512, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x512, .f32⟩
  | .hbm, ⟨22, _⟩ => ⟨S100000x512, .f32⟩
  | .hbm, ⟨23, _⟩ => ⟨S512x100000, .f32⟩
  | .hbm, ⟨24, _⟩ => ⟨S1024x100000, .f32⟩
  | .hbm, ⟨25, _⟩ => ⟨S1024x100000, .f32⟩
  | .hbm, ⟨26, _⟩ => ⟨S_, .f32⟩
  | .hbm, ⟨27, _⟩ => ⟨S1024x100000, .f32⟩
  | .hbm, ⟨28, _⟩ => ⟨S1024x100000, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1024x100000, .f32⟩
  | .hbm, ⟨33, _⟩ => ⟨S1024x100000, .f32⟩
  | .hbm, ⟨34, _⟩ => ⟨S_, .f32⟩
  | .hbm, ⟨35, _⟩ => ⟨S1024x100000, .f32⟩
  | .hbm, ⟨36, _⟩ => ⟨S1024x100000, .f32⟩
  | .hbm, ⟨37, _⟩ => ⟨S1024x100000, .f32⟩
  | .hbm, ⟨38, _⟩ => ⟨S_, .f32⟩
  | .hbm, ⟨39, _⟩ => ⟨S1024x100000, .f32⟩
  | .hbm, ⟨40, _⟩ => ⟨S1024x100000, .f32⟩
  | .hbm, ⟨41, _⟩ => ⟨S_, .f32⟩
  | .hbm, ⟨42, _⟩ => ⟨S1024x100000, .f32⟩
  | .hbm, ⟨43, _⟩ => ⟨S1024x100000, .f32⟩
  | .hbm, ⟨44, _⟩ => ⟨S1024x100000, .f32⟩
  | .hbm, ⟨45, _⟩ => ⟨S_, .f32⟩
  | .hbm, ⟨46, _⟩ => ⟨S1024x100000, .f32⟩
  | .hbm, ⟨47, _⟩ => ⟨S1024x100000, .i1⟩
  | .hbm, ⟨48, _⟩ => ⟨S_, .f32⟩
  | .hbm, ⟨49, _⟩ => ⟨S1024x100000, .f32⟩
  | .hbm, ⟨50, _⟩ => ⟨S1024x100000, .f32⟩
  | .hbm, ⟨51, _⟩ => ⟨S1024x100000, .f32⟩
  | .hbm, ⟨52, _⟩ => ⟨S1024x1, .i32⟩
  | .hbm, ⟨53, _⟩ => ⟨S1x100000, .i32⟩
  | .hbm, ⟨54, _⟩ => ⟨S1024x100000, .i32⟩
  | .hbm, ⟨55, _⟩ => ⟨S1024x100000, .i32⟩
  | .hbm, ⟨56, _⟩ => ⟨S1024x100000, .i1⟩
  | .hbm, ⟨57, _⟩ => ⟨S1024x100000, .f32⟩
  | .hbm, ⟨58, _⟩ => ⟨S1024x100000, .f32⟩
  | .hbm, ⟨59, _⟩ => ⟨S_, .f32⟩
  | .hbm, ⟨60, _⟩ => ⟨S1024x100000, .f32⟩
  | .hbm, ⟨61, _⟩ => ⟨S1024x100000, .f32⟩
  | .hbm, ⟨62, _⟩ => ⟨S1024x100000, .f32⟩
  | .hbm, ⟨63, _⟩ => ⟨S1024x100000, .f32⟩
  | .hbm, ⟨64, _⟩ => ⟨S_, .f32⟩
  | .hbm, ⟨65, _⟩ => ⟨S1024x100000, .f32⟩
  | .hbm, ⟨66, _⟩ => ⟨S1024x100000, .f32⟩
  | .hbm, ⟨67, _⟩ => ⟨S_, .f32⟩
  | .hbm, ⟨68, _⟩ => ⟨S1024, .f32⟩
  | .hbm, ⟨69, _⟩ => ⟨S_, .f32⟩
  | .hbm, ⟨70, _⟩ => ⟨S1024, .f32⟩
  | .hbm, ⟨71, _⟩ => ⟨S1024, .f32⟩
  | .hbm, ⟨72, _⟩ => ⟨S1024x1, .f32⟩
  | .hbm, ⟨73, _⟩ => ⟨S1024x100000, .f32⟩
  | .hbm, ⟨74, _⟩ => ⟨S1024x100000, .f32⟩
  | .hbm, ⟨75, _⟩ => ⟨S1024x100000, .f32⟩
  | .hbm, ⟨76, _⟩ => ⟨S_, .f32⟩
  | .hbm, ⟨77, _⟩ => ⟨S1024, .f32⟩
  | .hbm, ⟨78, _⟩ => ⟨S1024x1, .f32⟩
  | .hbm, ⟨79, _⟩ => ⟨S1024x1, .f32⟩
  | .hbm, ⟨80, _⟩ => ⟨S1024x100000, .f32⟩
  | .hbm, ⟨81, _⟩ => ⟨S1024x100000, .f32⟩
  | .hbm, ⟨82, _⟩ => ⟨S1024x1, .i32⟩
  | .hbm, ⟨83, _⟩ => ⟨S_, .i32⟩
  | .hbm, ⟨84, _⟩ => ⟨S1024x1, .i32⟩
  | .hbm, ⟨85, _⟩ => ⟨S1024x1, .i1⟩
  | .hbm, ⟨86, _⟩ => ⟨S_, .i32⟩
  | .hbm, ⟨87, _⟩ => ⟨S1024x1, .i32⟩
  | .hbm, ⟨88, _⟩ => ⟨S1024x1, .i32⟩
  | .hbm, ⟨89, _⟩ => ⟨S1024x1, .i32⟩
  | .hbm, ⟨90, _⟩ => ⟨S1024x1x1, .i32⟩
  | .hbm, ⟨91, _⟩ => ⟨S1, .i32⟩
  | .hbm, ⟨92, _⟩ => ⟨S_, .i32⟩
  | .hbm, ⟨93, _⟩ => ⟨S1024x1x1, .i32⟩
  | .hbm, ⟨94, _⟩ => ⟨S1024x1x1, .i1⟩
  | .hbm, ⟨95, _⟩ => ⟨S1x1x1, .i32⟩
  | .hbm, ⟨96, _⟩ => ⟨S1024x1x1, .i32⟩
  | .hbm, ⟨97, _⟩ => ⟨S1024x1x1, .i1⟩
  | .hbm, ⟨98, _⟩ => ⟨S1024x1x1, .i1⟩
  | .hbm, ⟨99, _⟩ => ⟨S_, .i1⟩
  | .hbm, ⟨100, _⟩ => ⟨S1024x1, .i1⟩
  | .hbm, ⟨101, _⟩ => ⟨S1024x1, .f32⟩
  | .hbm, ⟨102, _⟩ => ⟨S_, .f32⟩
  | .hbm, ⟨103, _⟩ => ⟨S1024x1, .f32⟩
  | .hbm, ⟨104, _⟩ => ⟨S1024x1, .f32⟩
  | .hbm, ⟨105, _⟩ => ⟨S1024, .f32⟩
  | .hbm, ⟨106, _⟩ => ⟨S1024, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_cst_3 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_v18 : Ref sig .tc := ⟨.hbm, 40, rfl⟩
abbrev main_cst_5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_6 : Ref sig .tc := ⟨.hbm, 45, rfl⟩
abbrev main_v22 : Ref sig .tc := ⟨.hbm, 46, rfl⟩
abbrev main_v23 : Ref sig .tc := ⟨.hbm, 47, rfl⟩
abbrev main_cst_7 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_call4_v0 : Ref sig .tc := ⟨.hbm, 52, rfl⟩
abbrev main_call4_v1 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_v27 : Ref sig .tc := ⟨.hbm, 57, rfl⟩
abbrev main_v28 : Ref sig .tc := ⟨.hbm, 58, rfl⟩
abbrev main_cst_8 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_9 : Ref sig .tc := ⟨.hbm, 64, rfl⟩
abbrev main_v33 : Ref sig .tc := ⟨.hbm, 65, rfl⟩
abbrev main_v34 : Ref sig .tc := ⟨.hbm, 66, rfl⟩
abbrev main_call5_cst : Ref sig .tc := ⟨.hbm, 67, rfl⟩
abbrev main_call5_v0 : Ref sig .tc := ⟨.hbm, 68, rfl⟩
abbrev main_call5_cst_0 : Ref sig .tc := ⟨.hbm, 69, rfl⟩
abbrev main_call5_v1 : Ref sig .tc := ⟨.hbm, 70, rfl⟩
abbrev main_call5_v2 : Ref sig .tc := ⟨.hbm, 71, rfl⟩
abbrev main_call5_v3 : Ref sig .tc := ⟨.hbm, 72, rfl⟩
abbrev main_call5_v4 : Ref sig .tc := ⟨.hbm, 73, rfl⟩
abbrev main_call5_v5 : Ref sig .tc := ⟨.hbm, 74, rfl⟩
abbrev main_call5_v6 : Ref sig .tc := ⟨.hbm, 75, rfl⟩
abbrev main_call5_cst_1 : Ref sig .tc := ⟨.hbm, 76, rfl⟩
abbrev main_call5_v7 : Ref sig .tc := ⟨.hbm, 77, rfl⟩
abbrev main_call5_v8 : Ref sig .tc := ⟨.hbm, 78, rfl⟩
abbrev main_call5_v9 : Ref sig .tc := ⟨.hbm, 79, rfl⟩
abbrev main_call5_v10 : Ref sig .tc := ⟨.hbm, 80, rfl⟩
abbrev main_v35 : Ref sig .tc := ⟨.hbm, 81, rfl⟩
abbrev main_v36 : Ref sig .tc := ⟨.hbm, 82, rfl⟩
abbrev main_call6_c : Ref sig .tc := ⟨.hbm, 83, rfl⟩
abbrev main_call6_v0 : Ref sig .tc := ⟨.hbm, 84, rfl⟩
abbrev main_call6_v1 : Ref sig .tc := ⟨.hbm, 85, rfl⟩
abbrev main_call6_c_0 : Ref sig .tc := ⟨.hbm, 86, rfl⟩
abbrev main_call6_v2 : Ref sig .tc := ⟨.hbm, 87, rfl⟩
abbrev main_call6_v3 : Ref sig .tc := ⟨.hbm, 88, rfl⟩
abbrev main_call6_v4 : Ref sig .tc := ⟨.hbm, 89, rfl⟩
abbrev main_call6_v5 : Ref sig .tc := ⟨.hbm, 90, rfl⟩
abbrev main_call6_c_1 : Ref sig .tc := ⟨.hbm, 91, rfl⟩
abbrev main_call6_c_2 : Ref sig .tc := ⟨.hbm, 92, rfl⟩
abbrev main_call6_v6 : Ref sig .tc := ⟨.hbm, 93, rfl⟩
abbrev main_call6_v7 : Ref sig .tc := ⟨.hbm, 94, rfl⟩
abbrev main_call6_v8 : Ref sig .tc := ⟨.hbm, 95, rfl⟩
abbrev main_call6_v9 : Ref sig .tc := ⟨.hbm, 96, rfl⟩
abbrev main_call6_v10 : Ref sig .tc := ⟨.hbm, 97, rfl⟩
abbrev main_call6_v11 : Ref sig .tc := ⟨.hbm, 98, rfl⟩
abbrev main_call6_c_3 : Ref sig .tc := ⟨.hbm, 99, rfl⟩
abbrev main_call6_v12 : Ref sig .tc := ⟨.hbm, 100, rfl⟩
abbrev main_call6_v13 : Ref sig .tc := ⟨.hbm, 101, rfl⟩
abbrev main_call6_cst : Ref sig .tc := ⟨.hbm, 102, rfl⟩
abbrev main_call6_v14 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_10 : Ref sig .tc := ⟨.hbm, 107, rfl⟩
abbrev main_v40 : Ref sig .tc := ⟨.hbm, 108, rfl⟩
abbrev main_cst_11 : Ref sig .tc := ⟨.hbm, 109, rfl⟩
abbrev main_v41 : Ref sig .tc := ⟨.hbm, 110, rfl⟩

abbrev nD : Nat := 1
abbrev τ : Topo := Topo.v7x

variable {F : FTy → Type} [FloatOps F]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  transposes_S100000x512_S512x100000_1_0 : S100000x512.Transposes [1, 0] S512x100000
  bcast_S_S1024x100000 : S_.BroadcastsInDim S1024x100000 (![] : Fin 0 → Fin S1024x100000.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  reducesTo_S1024x100000_S1024_d1 : S1024x100000.ReducesTo [1] S1024
  bcast_S_S1024 : S_.BroadcastsInDim S1024 (![] : Fin 0 → Fin S1024.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  reducesTo_S1024_S_d0 : S1024.ReducesTo [0] S_
  dot_S1024x512_S512x100000_S1024x100000_1_0_0_1_n_n_wf : DotDims.WF S1024x512 S512x100000 S1024x100000 [1] [0] [0] [1] [] []
  gather_S1024x100000_S1024x1x1_S1024x1_n_1_0_0_1_2_11_wf : GatherDims.WF S1024x100000 S1024x1x1 S1024x1 [] [1] [0] [1] [0] 2 ![1, 1]

variable [Facts₀]

def dot_S1024x512_S512x100000_S1024x100000_1_0_0_1_n_n : DotDims S1024x512 S512x100000 S1024x100000 where
  lhsContracting := [1]
  rhsContracting := [0]
  lhsNonContracting := [0]
  rhsNonContracting := [1]
  lhsBatch := []
  rhsBatch := []
  wf := dot_S1024x512_S512x100000_S1024x100000_1_0_0_1_n_n_wf
def gather_S1024x100000_S1024x1x1_S1024x1_n_1_0_0_1_2_11 : GatherDims S1024x100000 S1024x1x1 S1024x1 where
  offsetDims := []
  collapsedSliceDims := [1]
  operandBatchingDims := [0]
  startIndicesBatchingDims := [0]
  startIndexMap := [1]
  indexVectorDim := 2
  sliceSizes := ![1, 1]
  wf := gather_S1024x100000_S1024x1x1_S1024x1_n_1_0_0_1_2_11_wf

class Facts : Prop extends Facts₀ where

variable [Facts]
-- ==== Proof.Spec.lean ====
/-
  The ArcFace loss as ONE function of the three argument arrays, over the extended reals.

  For a batch row x (512 numbers) and a class row w: both are divided by their Euclidean norm kept
  above 1e-12, and the cosine is the sum of the products. The margin replaces cos θ at the label's
  column by cos θ · cos m − sin θ · sin m (sin θ = √(clip(1 − cos²θ))) above the threshold, and by
  cos θ − m·sin m below it; the logit is 64 times that. A row's loss is
      log Σ_c exp(z_c − M) + M − z_label,      M = max_c z_c,
  and the result is the mean of the 1024 losses.

  Also here: the same loss computed tile by tile — a running maximum, a running sum rescaled to the
  running maximum, and a running pick of the label's logit — stated as a recurrence over the tiles
  of one row.
-/
import Idealize.ShloMosaic.PureOps.Ideal
import Idealize.ShloMosaic.Lib.ValueIdx

noncomputable section

namespace Cert.ArcFace

open Idealize.ShloMosaic Idealize.ShloMosaic.ValueIdx

/-! ## The words both programs spell -/

abbrev kEps : EReal := Ideal.ofBits .f32 0x2B8CBCCC#32
abbrev kZero : EReal := Ideal.ofBits .f32 0x00000000#32
abbrev kOne : EReal := Ideal.ofBits .f32 0x3F800000#32
abbrev kCos : EReal := Ideal.ofBits .f32 0x3F60A940#32
abbrev kSin : EReal := Ideal.ofBits .f32 0x3EF57744#32
abbrev kTh : EReal := Ideal.ofBits .f32 0xBF60A940#32
abbrev kMm : EReal := Ideal.ofBits .f32 0x3E757744#32
abbrev kScale : EReal := Ideal.ofBits .f32 0x42800000#32
abbrev kNegInf : EReal := Ideal.ofBits .f32 0xFF800000#32
abbrev kBatch : EReal := Ideal.ofBits .f32 0x44800000#32

/-! ## One entry of the logit matrix -/

/-- A row's Euclidean norm, kept above 1e-12. -/
def clipNorm (v : Fin 512 → EReal) : EReal := max (Ideal.sqrt (∑ d, v d * v d)) kEps

/-- The cosine of two rows: the sum of the products of the normalised entries. -/
def cosine (x w : Fin 512 → EReal) : EReal :=
  ∑ d, Ideal.div (x d) (clipNorm x) * Ideal.div (w d) (clipNorm w)

/-- cos(θ + m) from cos θ above the threshold, cos θ − m·sin m below it. -/
def margin (c : EReal) : EReal :=
  Scalar.select (Ideal.cmp .ogt c kTh)
    (c * kCos - Ideal.sqrt (min kOne (max kZero (kOne - c * c))) * kSin)
    (c - kMm)

/-- The scaled logit: the margin at the label's column, the cosine elsewhere. -/
def logit (hit : Bool) (c : EReal) : EReal := kScale * (if hit then margin c else c)

/-- Row `r` of a matrix with 512 columns. -/
abbrev rowOf {n : Nat} (A : (⟨2, ![n, 512]⟩ : Shape).Idx → EReal) (r : Fin n) : Fin 512 → EReal :=
  fun d => A (ix2 r d)

/-- The logit matrix: row `r` of the embeddings against row `c` of the class weights, the margin
    where `c` is the row's label. -/
def logits (X : (⟨2, ![1024, 512]⟩ : Shape).Idx → EReal) (W : (⟨2, ![100000, 512]⟩ : Shape).Idx → EReal)
    (lab : Fin 1024 → Fin 100000) (r : Fin 1024) (c : Fin 100000) : EReal :=
  logit (decide (c = lab r)) (cosine (rowOf X r) (rowOf W c))

/-! ## A row's loss, and the mean -/

/-- The largest of a row's logits. -/
def rowMax (z : Fin 100000 → ℝ) : ℝ := Finset.univ.sup' Finset.univ_nonempty z

/-- log Σ exp(z − M) + M − z_label. -/
def rowLoss (z : Fin 100000 → ℝ) (l : Fin 100000) : ℝ :=
  Real.log (∑ c, Real.exp (z c - rowMax z)) + rowMax z - z l

/-- The mean over the batch of the rows' losses, each row's logits read as real numbers. -/
def loss (X : (⟨2, ![1024, 512]⟩ : Shape).Idx → EReal) (W : (⟨2, ![100000, 512]⟩ : Shape).Idx → EReal)
    (lab : Fin 1024 → Fin 100000) : EReal :=
  Ideal.div (kZero + ∑ r : Fin 1024, ((rowLoss (fun c => (logits X W lab r c).toReal) (lab r) : ℝ) : EReal)) kBatch

/-! ## The same loss, one tile of 1000 classes at a time -/

/-- The three running quantities of a row: the maximum so far, the sum of exp(z − maximum) so far,
    the label's logit if its column has been met. -/
structure Run where
  mx : EReal
  sm : EReal
  pk : EReal

/-- Before the first tile: −∞, 0, 0. -/
def Run.init : Run := ⟨kNegInf, kZero, kZero⟩

/-- One tile `t` (its 1000 logits) with the label's column marked by `hit`: the new maximum; the old
    sum rescaled by exp(old maximum − new maximum) plus the tile's sum; the pick plus the tile's
    marked logit. -/
def Run.step (s : Run) (t : Fin 1000 → EReal) (hit : Fin 1000 → Bool) : Run :=
  let m' := max s.mx ((Finset.univ : Finset (Fin 1000)).fold max kNegInf t)
  ⟨m', Ideal.exp (s.mx - m') * s.sm + ∑ j, Ideal.exp (t j - m'),
    s.pk + ∑ j, (if hit j then t j else kZero)⟩

/-- After the first `n` tiles. -/
def Run.after (t : ℕ → Fin 1000 → EReal) (hit : ℕ → Fin 1000 → Bool) : ℕ → Run
  | 0 => Run.init
  | n + 1 => (Run.after t hit n).step (t n) (hit n)

/-- What the last tile's point writes out: log of the sum, plus the maximum, minus the pick. -/
def Run.out (s : Run) : EReal := Ideal.log s.sm + s.mx - s.pk

/-- Column `j` of tile `k`. -/
def col (k : ℕ) (j : Fin 1000) (hk : k < 100) : Fin 100000 :=
  ⟨1000 * k + j.val, by have := j.isLt; omega⟩

/-- A row's logits cut into 100 tiles of 1000 (zero past the last tile: never read). -/
def tiles (z : Fin 100000 → EReal) : ℕ → Fin 1000 → EReal :=
  fun k j => if hk : k < 100 then z (col k j hk) else 0

/-- The label's column, tile by tile. -/
def hits (l : Fin 100000) : ℕ → Fin 1000 → Bool :=
  fun k j => decide (1000 * k + j.val = l.val)

end Cert.ArcFace

end
-- ==== Proof.Algebra.lean ====
/-
  The mathematics that joins the two programs.

  * A logit is a real number when the inputs are (every division is by a norm kept above 1e-12).
  * The reference blends margin and cosine through a one-hot factor; on the extended reals that
    blend is the plain choice between the two.
  * Softmax cross-entropy computed tile by tile (running maximum, running sum rescaled by
    exp(old maximum − new maximum), running pick of the label's logit) ends at
    log Σ exp(z − M) + M − z_label, and so does minus the log-softmax at the label.
-/
import proofs.«402029_j82085414961612_1_alg».proof.Proof.Spec
import Mathlib.Analysis.SpecialFunctions.Log.Basic
import Mathlib.Analysis.SpecialFunctions.Exp

noncomputable section

namespace Cert.ArcFace

open Idealize.ShloMosaic Idealize.ShloMosaic.ValueIdx

/-! ## The words as extended reals -/

theorem kZero_eq : kZero = 0 := by
  simp [Ideal.ofBits, Ideal.ieee]

theorem kOne_eq : kOne = 1 := by
  simp [Ideal.ofBits, Ideal.ieee, -EReal.coe_mul]; norm_num

theorem kNegInf_eq : kNegInf = ⊥ := by
  simp [Ideal.ofBits, Ideal.ieee]

/-- 1e-12 (its nearest single) is a positive real. -/
theorem kEps_pos : ∃ e : ℝ, 0 < e ∧ kEps = (e : EReal) := by
  simp [Ideal.ofBits, Ideal.ieee, -EReal.coe_mul]

theorem kCos_real : ∃ r : ℝ, kCos = (r : EReal) := by
  simp [Ideal.ofBits, Ideal.ieee, -EReal.coe_mul]

theorem kSin_real : ∃ r : ℝ, kSin = (r : EReal) := by
  simp [Ideal.ofBits, Ideal.ieee, -EReal.coe_mul]

theorem kMm_real : ∃ r : ℝ, kMm = (r : EReal) := by
  simp [Ideal.ofBits, Ideal.ieee, -EReal.coe_mul]

theorem kScale_real : ∃ r : ℝ, kScale = (r : EReal) := by
  simp [Ideal.ofBits, Ideal.ieee, -EReal.coe_mul]

/-! ## Real numbers inside the extended reals -/

/-- The coercion of a finite sum of reals is the sum of the coercions. -/
theorem coe_sum' {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem coe_max' (a b : ℝ) : ((max a b : ℝ) : EReal) = max (a : EReal) (b : EReal) :=
  EReal.coe_strictMono.monotone.map_max

theorem coe_min' (a b : ℝ) : ((min a b : ℝ) : EReal) = min (a : EReal) (b : EReal) :=
  EReal.coe_strictMono.monotone.map_min

theorem real_add {a b : EReal} (ha : ∃ r : ℝ, a = r) (hb : ∃ r : ℝ, b = r) : ∃ r : ℝ, a + b = r := by
  obtain ⟨x, rfl⟩ := ha
  obtain ⟨y, rfl⟩ := hb
  exact ⟨x + y, (EReal.coe_add x y).symm⟩

theorem real_sub {a b : EReal} (ha : ∃ r : ℝ, a = r) (hb : ∃ r : ℝ, b = r) : ∃ r : ℝ, a - b = r := by
  obtain ⟨x, rfl⟩ := ha
  obtain ⟨y, rfl⟩ := hb
  exact ⟨x - y, (EReal.coe_sub x y).symm⟩

theorem real_mul {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

/-! ## Finiteness -/

/-- The norm of a real row, kept above 1e-12, is a positive real. -/
theorem clipNorm_pos (v : Fin 512 → ℝ) :
    ∃ n : ℝ, 0 < n ∧ clipNorm (fun d => (v d : EReal)) = (n : EReal) := by
  obtain ⟨e, he, hk⟩ := kEps_pos
  have hs : (∑ d, (v d : EReal) * (v d : EReal)) = ((∑ d, v d * v d : ℝ) : EReal) := by
    rw [coe_sum']
    simp only [EReal.coe_mul]
  have h0 : ¬ (∑ d, v d * v d) < 0 := not_lt.mpr (Finset.sum_nonneg fun d _ => mul_self_nonneg (v d))
  refine ⟨max (Real.sqrt (∑ d, v d * v d)) e, lt_max_of_lt_right he, ?_⟩
  show max (Ideal.sqrt (∑ d, (v d : EReal) * (v d : EReal))) kEps = _
  rw [hs, Ideal.sqrt_coe, if_neg h0, hk, coe_max']

/-- The cosine of two real rows is a real: each entry is divided by a positive real. -/
theorem cosine_coe (x w : Fin 512 → ℝ) :
    ∃ r : ℝ, cosine (fun d => (x d : EReal)) (fun d => (w d : EReal)) = (r : EReal) := by
  obtain ⟨nx, hnx, hx⟩ := clipNorm_pos x
  obtain ⟨nw, hnw, hw⟩ := clipNorm_pos w
  refine ⟨∑ d, (x d * (1 / nx)) * (w d * (1 / nw)), ?_⟩
  show ∑ d, Ideal.div (x d : EReal) (clipNorm fun d => (x d : EReal))
      * Ideal.div (w d : EReal) (clipNorm fun d => (w d : EReal)) = _
  rw [hx, hw, coe_sum']
  refine Finset.sum_congr rfl fun d _ => ?_
  rw [Ideal.div_coe hnx.ne', Ideal.div_coe hnw.ne', ← EReal.coe_mul, ← EReal.coe_mul, ← EReal.coe_mul]

theorem cosine_finite (x w : Fin 512 → EReal) (hx : ∀ d, ∃ r : ℝ, x d = r) (hw : ∀ d, ∃ r : ℝ, w d = r) :
    ∃ r : ℝ, cosine x w = r := by
  choose xr hxr using hx
  choose wr hwr using hw
  have hx' : x = fun d => (xr d : EReal) := funext hxr
  have hw' : w = fun d => (wr d : EReal) := funext hwr
  rw [hx', hw']
  exact cosine_coe xr wr

/-- The square root of a real clipped into [0, 1] is a real. -/
theorem sqrt_clip_real (y : ℝ) :
    ∃ r : ℝ, Ideal.sqrt (min kOne (max kZero (y : EReal))) = r := by
  have h : min kOne (max kZero (y : EReal)) = ((min 1 (max 0 y) : ℝ) : EReal) := by
    rw [kOne_eq, kZero_eq, coe_min', coe_max', EReal.coe_one, EReal.coe_zero]
  have h0 : ¬ min 1 (max 0 y) < 0 := not_lt.mpr (le_min zero_le_one (le_max_left 0 y))
  exact ⟨Real.sqrt (min 1 (max 0 y)), by rw [h, Ideal.sqrt_coe, if_neg h0]⟩

/-- The margin of a real cosine is a real: whichever branch the comparison picks. -/
theorem margin_coe (c : ℝ) : ∃ r : ℝ, margin (c : EReal) = (r : EReal) := by
  have hc : ∃ r : ℝ, (c : EReal) = r := ⟨c, rfl⟩
  have h1 : ∃ r : ℝ, kOne = (r : EReal) := ⟨1, kOne_eq⟩
  obtain ⟨y, hy⟩ := real_sub h1 (real_mul hc hc)
  unfold margin Scalar.select
  split_ifs
  · refine real_sub (real_mul hc kCos_real) (real_mul ?_ kSin_real)
    rw [hy]
    exact sqrt_clip_real y
  · exact real_sub hc kMm_real

theorem logit_finite (hit : Bool) (c : EReal) (hc : ∃ r : ℝ, c = r) : ∃ r : ℝ, logit hit c = r := by
  obtain ⟨cr, rfl⟩ := hc
  unfold logit
  cases hit
  · exact real_mul kScale_real ⟨cr, rfl⟩
  · exact real_mul kScale_real (margin_coe cr)

theorem logits_finite (X : (⟨2, ![1024, 512]⟩ : Shape).Idx → EReal) (W : (⟨2, ![100000, 512]⟩ : Shape).Idx → EReal)
    (lab : Fin 1024 → Fin 100000) (hX : ∀ i, ∃ r : ℝ, X i = r) (hW : ∀ i, ∃ r : ℝ, W i = r) (r : Fin 1024) (c : Fin 100000) :
    logits X W lab r c = (((logits X W lab r c).toReal : ℝ) : EReal) := by
  obtain ⟨v, hv⟩ : ∃ v : ℝ, logits X W lab r c = v :=
    logit_finite _ _ (cosine_finite _ _ (fun d => hX _) (fun d => hW _))
  rw [hv, EReal.toReal_coe]

/-! ## The one-hot blend is the choice -/

theorem blend_eq (b : BitVec 1) (mg c : EReal) :
    kScale * ((((b.toNat : ℝ) : EReal)) * mg + (kOne - (((b.toNat : ℝ) : EReal))) * c)
      = kScale * (if b = 1#1 then mg else c) := by
  have h11 : kOne - ((1 : ℝ) : EReal) = 0 := by
    rw [kOne_eq, ← EReal.coe_one, ← EReal.coe_sub, sub_self, EReal.coe_zero]
  have h10 : kOne - ((0 : ℝ) : EReal) = 1 := by
    rw [kOne_eq, EReal.coe_zero, sub_zero]
  rcases BitVec.eq_zero_or_eq_one b with rfl | rfl
  · have hne : ¬ (0#1 = 1#1) := by decide
    rw [if_neg hne]
    have : ((0#1).toNat : ℝ) = 0 := by simp
    rw [this, h10, EReal.coe_zero, zero_mul, zero_add, one_mul]
  · rw [if_pos rfl]
    have : ((1#1).toNat : ℝ) = 1 := by simp
    rw [this, h11, EReal.coe_one, one_mul, zero_mul, add_zero]

/-! ## Tile by tile is all at once -/

/-- The largest of finitely many reals, read in the extended reals with −∞ for no entry at all. -/
theorem sup_coe {ι : Type*} (S : Finset ι) (h : S.Nonempty) (z : ι → ℝ) :
    S.sup (fun c => (z c : EReal)) = ((S.sup' h z : ℝ) : EReal) := by
  obtain ⟨i, hi, hm⟩ := Finset.exists_mem_eq_sup' h z
  apply le_antisymm
  · exact Finset.sup_le fun c hc => EReal.coe_le_coe_iff.2 (Finset.le_sup' z hc)
  · rw [hm]
    exact Finset.le_sup (f := fun c => (z c : EReal)) hi

/-- The running maximum started at −∞ is that supremum. -/
theorem fold_max_eq_sup {ι : Type*} (S : Finset ι) (f : ι → EReal) :
    S.fold max kNegInf f = S.sup f := by
  rw [kNegInf_eq]
  rfl

/-- A sum of exponentials of real differences is the coercion of the real sum. -/
theorem sum_exp_coe {ι : Type*} (S : Finset ι) (z : ι → ℝ) (m : ℝ) :
    ∑ c ∈ S, Ideal.exp ((z c : EReal) - (m : EReal)) = ((∑ c ∈ S, Real.exp (z c - m) : ℝ) : EReal) := by
  rw [coe_sum']
  refine Finset.sum_congr rfl fun c _ => ?_
  rw [← EReal.coe_sub, Ideal.exp_coe]

/-- Rescaling a sum of exponentials from the maximum over `S` to the maximum over a larger set:
    exp(M − M') · Σ exp(z − M) = Σ exp(z − M'). Over no columns both sides are 0, whatever exp(−∞ − M')
    is. -/
theorem rescale {ι : Type*} [DecidableEq ι] (z : ι → ℝ) (S T : Finset ι) :
    Ideal.exp (S.sup (fun c => (z c : EReal)) - (S ∪ T).sup (fun c => (z c : EReal)))
        * ∑ c ∈ S, Ideal.exp ((z c : EReal) - S.sup (fun c => (z c : EReal)))
      = ∑ c ∈ S, Ideal.exp ((z c : EReal) - (S ∪ T).sup (fun c => (z c : EReal))) := by
  rcases S.eq_empty_or_nonempty with rfl | hS
  · simp
  · have hST : (S ∪ T).Nonempty := hS.mono Finset.subset_union_left
    rw [sup_coe S hS, sup_coe (S ∪ T) hST, sum_exp_coe, sum_exp_coe, ← EReal.coe_sub, Ideal.exp_coe,
      ← EReal.coe_mul, Finset.mul_sum]
    congr 1
    refine Finset.sum_congr rfl fun c _ => ?_
    rw [← Real.exp_add]
    congr 1
    ring

/-- The columns of the first `n` tiles. -/
def below (n : ℕ) : Finset (Fin 100000) := Finset.univ.filter fun c => c.val < 1000 * n

/-- The columns of tile `k`. -/
def tileCols (k : ℕ) (hk : k < 100) : Finset (Fin 100000) := Finset.univ.image fun j => col k j hk

theorem col_val (k : ℕ) (j : Fin 1000) (hk : k < 100) : (col k j hk).val = 1000 * k + j.val := rfl

theorem col_injective (k : ℕ) (hk : k < 100) : Function.Injective fun j => col k j hk := by
  intro a b h
  have := congrArg Fin.val h
  simp only [col_val] at this
  exact Fin.ext (by omega)

theorem mem_below {n : ℕ} {c : Fin 100000} : c ∈ below n ↔ c.val < 1000 * n := by
  simp [below]

theorem mem_tileCols {k : ℕ} {hk : k < 100} {c : Fin 100000} :
    c ∈ tileCols k hk ↔ 1000 * k ≤ c.val ∧ c.val < 1000 * (k + 1) := by
  simp only [tileCols, Finset.mem_image, Finset.mem_univ, true_and]
  constructor
  · rintro ⟨j, rfl⟩
    have := j.isLt
    rw [col_val]
    omega
  · rintro ⟨h1, h2⟩
    refine ⟨⟨c.val - 1000 * k, by omega⟩, Fin.ext ?_⟩
    rw [col_val]
    show 1000 * k + (c.val - 1000 * k) = c.val
    omega

theorem below_zero : below 0 = ∅ := by
  ext c
  simp [mem_below]

theorem below_succ {n : ℕ} (hn : n < 100) : below (n + 1) = below n ∪ tileCols n hn := by
  ext c
  rw [Finset.mem_union, mem_below, mem_below, mem_tileCols]
  omega

theorem below_disjoint {n : ℕ} (hn : n < 100) : Disjoint (below n) (tileCols n hn) := by
  rw [Finset.disjoint_left]
  intro c h1 h2
  rw [mem_below] at h1
  rw [mem_tileCols] at h2
  omega

theorem below_all : below 100 = Finset.univ := by
  ext c
  have := c.isLt
  simp [mem_below]

/-- The three running quantities once exactly the columns in `S` have been met. -/
def Run.of (z : Fin 100000 → ℝ) (l : Fin 100000) (S : Finset (Fin 100000)) : Run :=
  ⟨S.sup fun c => (z c : EReal),
   ∑ c ∈ S, Ideal.exp ((z c : EReal) - S.sup fun c => (z c : EReal)),
   ∑ c ∈ S, if c = l then (z c : EReal) else 0⟩

/-- One tile more: from the columns in `S` to `S` and tile `k`. -/
theorem Run.of_step (z : Fin 100000 → ℝ) (l : Fin 100000) (S : Finset (Fin 100000)) (k : ℕ) (hk : k < 100)
    (hd : Disjoint S (tileCols k hk)) :
    (Run.of z l S).step (tiles (fun c => (z c : EReal)) k) (hits l k) = Run.of z l (S ∪ tileCols k hk) := by
  have ht : tiles (fun c => (z c : EReal)) k = fun j => (z (col k j hk) : EReal) := by
    funext j
    simp [tiles, hk]
  have hh : hits l k = fun j => decide (col k j hk = l) := by
    funext j
    simp [hits, Fin.ext_iff, col_val]
  have hsumT : ∀ f : Fin 100000 → EReal, ∑ j, f (col k j hk) = ∑ c ∈ tileCols k hk, f c := fun f =>
    (Finset.sum_image fun a _ b _ h => col_injective k hk h).symm
  have hfold : (Finset.univ : Finset (Fin 1000)).fold max kNegInf (fun j => (z (col k j hk) : EReal))
      = (tileCols k hk).sup fun c => (z c : EReal) := by
    rw [fold_max_eq_sup, tileCols, Finset.sup_image]
    rfl
  have hm : max (S.sup fun c => (z c : EReal)) ((tileCols k hk).sup fun c => (z c : EReal))
      = (S ∪ tileCols k hk).sup fun c => (z c : EReal) := Finset.sup_union.symm
  rw [ht, hh]
  unfold Run.step Run.of
  simp only [hfold, hm]
  congr 1
  · rw [rescale, Finset.sum_union hd, hsumT fun c => Ideal.exp ((z c : EReal) - (S ∪ tileCols k hk).sup fun c => (z c : EReal))]
  · rw [Finset.sum_union hd, ← hsumT fun c => if c = l then (z c : EReal) else 0]
    congr 1
    refine Finset.sum_congr rfl fun j _ => ?_
    simp [kZero_eq]

/-- After `n` tiles the columns below 1000·n have been met. -/
theorem after_eq (z : Fin 100000 → ℝ) (l : Fin 100000) :
    ∀ n, n ≤ 100 → Run.after (tiles fun c => (z c : EReal)) (hits l) n = Run.of z l (below n)
  | 0, _ => by
    rw [below_zero]
    simp [Run.after, Run.init, Run.of, kNegInf_eq, kZero_eq]
  | n + 1, h => by
    have hn : n < 100 := h
    rw [Run.after, after_eq z l n hn.le, below_succ hn, Run.of_step z l _ n hn (below_disjoint hn)]

/-- The closed form over all columns, from the maximum and the sum as extended reals. -/
theorem closed_form (z : Fin 100000 → ℝ) :
    (Finset.univ.sup fun c => (z c : EReal)) = ((rowMax z : ℝ) : EReal) ∧
    Ideal.log (∑ c, Ideal.exp ((z c : EReal) - ((rowMax z : ℝ) : EReal)))
      = ((Real.log (∑ c, Real.exp (z c - rowMax z)) : ℝ) : EReal) := by
  refine ⟨sup_coe Finset.univ Finset.univ_nonempty z, ?_⟩
  have hpos : ¬ (∑ c, Real.exp (z c - rowMax z)) ≤ 0 :=
    not_le.mpr (Finset.sum_pos (fun c _ => Real.exp_pos _) Finset.univ_nonempty)
  rw [sum_exp_coe, Ideal.log_coe, if_neg hpos]

/-- All 100 tiles of a row of real logits: what the last point writes is the row's loss. -/
theorem run_out_eq (z : Fin 100000 → ℝ) (l : Fin 100000) :
    (Run.after (tiles fun c => ((z c : ℝ) : EReal)) (hits l) 100).out = ((rowLoss z l : ℝ) : EReal) := by
  obtain ⟨hM, hL⟩ := closed_form z
  rw [after_eq z l 100 le_rfl, below_all]
  unfold Run.out Run.of
  simp only [hM, hL, Finset.sum_ite_eq', Finset.mem_univ, if_true]
  unfold rowLoss
  rw [EReal.coe_sub, EReal.coe_add]

/-- Minus the log-softmax at the label, as the reference spells it (the maximum taken from −∞, the
    sum from 0). -/
theorem neg_log_softmax_eq (z : Fin 100000 → ℝ) (l : Fin 100000) :
    -((((z l : ℝ) : EReal) - max kNegInf ((Finset.univ : Finset (Fin 100000)).fold max kNegInf fun c => ((z c : ℝ) : EReal)))
        - Ideal.log (kZero + ∑ c, Ideal.exp (((z c : ℝ) : EReal)
            - max kNegInf ((Finset.univ : Finset (Fin 100000)).fold max kNegInf fun c => ((z c : ℝ) : EReal)))))
      = ((rowLoss z l : ℝ) : EReal) := by
  obtain ⟨hM, hL⟩ := closed_form z
  have hmax : max kNegInf ((Finset.univ : Finset (Fin 100000)).fold max kNegInf fun c => ((z c : ℝ) : EReal))
      = ((rowMax z : ℝ) : EReal) := by
    rw [fold_max_eq_sup, hM, kNegInf_eq]
    exact max_eq_right bot_le
  have hr : rowLoss z l = -(z l - rowMax z - Real.log (∑ c, Real.exp (z c - rowMax z))) := by
    unfold rowLoss
    ring
  rw [hmax, kZero_eq, zero_add, hL, ← EReal.coe_sub, ← EReal.coe_sub, ← EReal.coe_neg, hr]

end Cert.ArcFace

end
-- ==== Proof.Pieces.lean ====
/-
  What each case of the kernel body leaves in the three carried buffers and in the output block, as
  the body's arithmetic of the blocks it loaded. At the first class tile the buffers are first
  reset (−∞, 0, 0) and then updated; at every other tile they are updated from what the tile before
  left; at the last tile the output block is log(sum) + maximum − pick of the updated buffers.
-/
import proofs.«402029_j82085414961612_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! ## A tile that is neither first nor last: the three updates -/

theorem sout_B_0 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i) (x0 : Vec F S512x512 .f32) (x1 : Vec F S1000x512 .f32) (x2 : Vec F S512x1 .i32) (xs0 xs1 xs2 : Vec F S512x1 .f32) :
    sout0_B_0 c i arg2 harg2 arg3 harg3 arg4 harg4 arg5 harg5 arg6 harg6 arg7 harg7 arg8 harg8 hc0 hc1 x0 x1 x2 xs0 xs1 xs2
      = k0_pay13 (BitVec.ofNat 32 (i 1).val) (k0_pay6 x0 x1) (k0_pay7 x0 x1) (k0_pay8 x0 x1) (Scalar.ofBits .f32 0x3E757744#32) x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread,
    View.ld_unit_zero (S := S512x512) hz, View.ld_unit_zero (S := S1000x512) hz, View.ld_unit_zero (S := S512x1) hz]

theorem sout_B_1 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i) (x0 : Vec F S512x512 .f32) (x1 : Vec F S1000x512 .f32) (x2 : Vec F S512x1 .i32) (xs0 xs1 xs2 : Vec F S512x1 .f32) :
    sout0_B_1 c i arg2 harg2 arg3 harg3 arg4 harg4 arg5 harg5 arg6 harg6 arg7 harg7 arg8 harg8 hc0 hc1 x0 x1 x2 xs0 xs1 xs2
      = k0_pay12 (BitVec.ofNat 32 (i 1).val) (k0_pay6 x0 x1) (k0_pay7 x0 x1) (k0_pay8 x0 x1) (Scalar.ofBits .f32 0x3E757744#32) x2 xs0 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread,
    View.ld_unit_zero (S := S512x512) hz, View.ld_unit_zero (S := S1000x512) hz, View.ld_unit_zero (S := S512x1) hz]

theorem sout_B_2 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i) (x0 : Vec F S512x512 .f32) (x1 : Vec F S1000x512 .f32) (x2 : Vec F S512x1 .i32) (xs0 xs1 xs2 : Vec F S512x1 .f32) :
    sout0_B_2 c i arg2 harg2 arg3 harg3 arg4 harg4 arg5 harg5 arg6 harg6 arg7 harg7 arg8 harg8 hc0 hc1 x0 x1 x2 xs0 xs1 xs2
      = k0_pay1 xs2 (k0_pay14 (BitVec.ofNat 32 (i 1).val) (k0_pay6 x0 x1) (k0_pay7 x0 x1) (k0_pay8 x0 x1) (Scalar.ofBits .f32 0x3E757744#32) x2) := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread,
    View.ld_unit_zero (S := S512x512) hz, View.ld_unit_zero (S := S1000x512) hz, View.ld_unit_zero (S := S512x1) hz]

/-! ## The last tile: the same updates, and the output block -/

theorem sout_C_0 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x512 .f32) (x1 : Vec F S1000x512 .f32) (x2 : Vec F S512x1 .i32) (xs0 xs1 xs2 : Vec F S512x1 .f32) :
    sout0_C_0 c i arg2 harg2 arg3 harg3 arg4 harg4 arg5 harg5 arg6 harg6 arg7 harg7 arg8 harg8 hc0 hc1 x0 x1 x2 xs0 xs1 xs2
      = k0_pay13 (BitVec.ofNat 32 (i 1).val) (k0_pay6 x0 x1) (k0_pay7 x0 x1) (k0_pay8 x0 x1) (Scalar.ofBits .f32 0x3E757744#32) x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread,
    View.ld_unit_zero (S := S512x512) hz, View.ld_unit_zero (S := S1000x512) hz, View.ld_unit_zero (S := S512x1) hz]

theorem sout_C_1 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x512 .f32) (x1 : Vec F S1000x512 .f32) (x2 : Vec F S512x1 .i32) (xs0 xs1 xs2 : Vec F S512x1 .f32) :
    sout0_C_1 c i arg2 harg2 arg3 harg3 arg4 harg4 arg5 harg5 arg6 harg6 arg7 harg7 arg8 harg8 hc0 hc1 x0 x1 x2 xs0 xs1 xs2
      = k0_pay12 (BitVec.ofNat 32 (i 1).val) (k0_pay6 x0 x1) (k0_pay7 x0 x1) (k0_pay8 x0 x1) (Scalar.ofBits .f32 0x3E757744#32) x2 xs0 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread,
    View.ld_unit_zero (S := S512x512) hz, View.ld_unit_zero (S := S1000x512) hz, View.ld_unit_zero (S := S512x1) hz]

theorem sout_C_2 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x512 .f32) (x1 : Vec F S1000x512 .f32) (x2 : Vec F S512x1 .i32) (xs0 xs1 xs2 : Vec F S512x1 .f32) :
    sout0_C_2 c i arg2 harg2 arg3 harg3 arg4 harg4 arg5 harg5 arg6 harg6 arg7 harg7 arg8 harg8 hc0 hc1 x0 x1 x2 xs0 xs1 xs2
      = k0_pay1 xs2 (k0_pay14 (BitVec.ofNat 32 (i 1).val) (k0_pay6 x0 x1) (k0_pay7 x0 x1) (k0_pay8 x0 x1) (Scalar.ofBits .f32 0x3E757744#32) x2) := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread,
    View.ld_unit_zero (S := S512x512) hz, View.ld_unit_zero (S := S1000x512) hz, View.ld_unit_zero (S := S512x1) hz]

theorem out_C_3 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x512 .f32) (x1 : Vec F S1000x512 .f32) (x2 : Vec F S512x1 .i32) (xs0 xs1 xs2 : Vec F S512x1 .f32) :
    out0_C_3 c i arg2 harg2 arg3 harg3 arg4 harg4 arg5 harg5 arg6 harg6 arg7 harg7 arg8 harg8 hc0 hc1 x0 x1 x2 xs0 xs1 xs2
      = k0_pay2 (k0_pay12 (BitVec.ofNat 32 (i 1).val) (k0_pay6 x0 x1) (k0_pay7 x0 x1) (k0_pay8 x0 x1) (Scalar.ofBits .f32 0x3E757744#32) x2 xs0 xs0 xs1)
          (k0_pay13 (BitVec.ofNat 32 (i 1).val) (k0_pay6 x0 x1) (k0_pay7 x0 x1) (k0_pay8 x0 x1) (Scalar.ofBits .f32 0x3E757744#32) x2 xs0)
          (k0_pay1 xs2 (k0_pay14 (BitVec.ofNat 32 (i 1).val) (k0_pay6 x0 x1) (k0_pay7 x0 x1) (k0_pay8 x0 x1) (Scalar.ofBits .f32 0x3E757744#32) x2)) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread,
    View.ld_unit_zero (S := S512x512) hz, View.ld_unit_zero (S := S1000x512) hz, View.ld_unit_zero (S := S512x1) hz,
    View.readCov_unit_zero (S := S512x1) _ hz]

/-! ## The first tile: reset, then the updates of the reset values -/

theorem sout_A_0 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i) (x0 : Vec F S512x512 .f32) (x1 : Vec F S1000x512 .f32) (x2 : Vec F S512x1 .i32) :
    sout0_A_0 c i arg2 harg2 arg3 harg3 arg4 harg4 arg5 harg5 arg6 harg6 arg7 harg7 arg8 harg8 hc0 hc1 x0 x1 x2
      = k0_pay13 (BitVec.ofNat 32 (i 1).val) (k0_pay6 x0 x1) (k0_pay7 x0 x1) (k0_pay8 x0 x1) (Scalar.ofBits .f32 0x3E757744#32) x2 k0_pay3 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz]
  simp only [View.readAt_eq_ld, harg2.read_unread, harg3.read_unread, harg4.read_unread, harg6.read_unread, harg7.read_unread, harg8.read_unread,
    View.ld_unit_zero (S := S512x512) hz, View.ld_unit_zero (S := S1000x512) hz, View.ld_unit_zero (S := S512x1) hz,
    View.readCov_unit_zero (S := S512x1) _ hz]

theorem sout_A_1 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i) (x0 : Vec F S512x512 .f32) (x1 : Vec F S1000x512 .f32) (x2 : Vec F S512x1 .i32) :
    sout0_A_1 c i arg2 harg2 arg3 harg3 arg4 harg4 arg5 harg5 arg6 harg6 arg7 harg7 arg8 harg8 hc0 hc1 x0 x1 x2
      = k0_pay12 (BitVec.ofNat 32 (i 1).val) (k0_pay6 x0 x1) (k0_pay7 x0 x1) (k0_pay8 x0 x1) (Scalar.ofBits .f32 0x3E757744#32) x2 k0_pay3 k0_pay3 k0_pay4 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz]
  simp only [View.readAt_eq_ld, harg2.read_unread, harg3.read_unread, harg4.read_unread, harg6.read_unread, harg7.read_unread, harg8.read_unread,
    View.ld_unit_zero (S := S512x512) hz, View.ld_unit_zero (S := S1000x512) hz, View.ld_unit_zero (S := S512x1) hz,
    View.readCov_unit_zero (S := S512x1) _ hz]

theorem sout_A_2 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i) (x0 : Vec F S512x512 .f32) (x1 : Vec F S1000x512 .f32) (x2 : Vec F S512x1 .i32) :
    sout0_A_2 c i arg2 harg2 arg3 harg3 arg4 harg4 arg5 harg5 arg6 harg6 arg7 harg7 arg8 harg8 hc0 hc1 x0 x1 x2
      = k0_pay1 k0_pay5 (k0_pay14 (BitVec.ofNat 32 (i 1).val) (k0_pay6 x0 x1) (k0_pay7 x0 x1) (k0_pay8 x0 x1) (Scalar.ofBits .f32 0x3E757744#32) x2) := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz]
  simp only [View.readAt_eq_ld, harg2.read_unread, harg3.read_unread, harg4.read_unread, harg6.read_unread, harg7.read_unread, harg8.read_unread,
    View.ld_unit_zero (S := S512x512) hz, View.ld_unit_zero (S := S1000x512) hz, View.ld_unit_zero (S := S512x1) hz,
    View.readCov_unit_zero (S := S512x1) _ hz]

end Cert.KernelIdeal.Pieces

end
-- ==== Proof.Blocks.lean ====
/-
  Which entries of the argument arrays a grid point's blocks hold. Point t is batch tile t / 100
  and class tile t % 100: row p of the embedding block is row 512·(t/100) + p of the embeddings,
  row q of the weight block is row 1000·(t%100) + q of the class weights, and entry p of the label
  block is the label of that batch row (the labels enter the region as a column, a reshape).
-/
import proofs.«402029_j82085414961612_1_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The batch row behind row p of point t's tile. -/
def brow (t : Fin cfg0.N) (p : Fin 512) : Fin 1024 :=
  ⟨512 * (t.val / 100) + p.val, by have := t.isLt; have h : cfg0.N = 200 := N_0; have := p.isLt; omega⟩

/-- The class behind column q of point t's tile. -/
def bcol (t : Fin cfg0.N) (q : Fin 1000) : Fin 100000 :=
  ⟨1000 * (t.val % 100) + q.val, by have := q.isLt; have := Nat.mod_lt t.val (by decide : 100 > 0); omega⟩

theorem index0 : ∀ t : Fin cfg0.N, win0_0.index t (0 : Fin 2) = t.val / 100 ∧ win0_0.index t (1 : Fin 2) = 0 :=
  (by decide +kernel : ∀ t : Fin grid0.N, win0_0.index t (0 : Fin 2) = t.val / 100 ∧ win0_0.index t (1 : Fin 2) = 0)
theorem index1 : ∀ t : Fin cfg0.N, win0_1.index t (0 : Fin 2) = t.val % 100 ∧ win0_1.index t (1 : Fin 2) = 0 :=
  (by decide +kernel : ∀ t : Fin grid0.N, win0_1.index t (0 : Fin 2) = t.val % 100 ∧ win0_1.index t (1 : Fin 2) = 0)
theorem index2 : ∀ t : Fin cfg0.N, win0_2.index t (0 : Fin 2) = t.val / 100 ∧ win0_2.index t (1 : Fin 2) = 0 :=
  (by decide +kernel : ∀ t : Fin grid0.N, win0_2.index t (0 : Fin 2) = t.val / 100 ∧ win0_2.index t (1 : Fin 2) = 0)
theorem index3 : ∀ t : Fin cfg0.N, win0_3.index t (0 : Fin 2) = t.val / 100 ∧ win0_3.index t (1 : Fin 2) = 0 :=
  (by decide +kernel : ∀ t : Fin grid0.N, win0_3.index t (0 : Fin 2) = t.val / 100 ∧ win0_3.index t (1 : Fin 2) = 0)

/-- The grid coordinate along the class axis. -/
theorem coord1 : ∀ t : Fin cfg0.N, ((grid0.coords t) 1).val = t.val % 100 :=
  (by decide +kernel : ∀ t : Fin grid0.N, ((grid0.coords t) 1).val = t.val % 100)

/-- Row p of the embedding block. -/
theorem xblk_apply (c : Dev nD) (t : Fin cfg0.N) (p d : Fin 512) :
    (iblk m c 0 t : Vec F S512x512 .f32) (ix2 p d) = m ((c : Thread nD τ).loc main_arg0) (ix2 (brow t p) d) := by
  have hi := index0 t
  unfold iblk
  rw [View.read_apply]
  show V m c main_arg0 _ = _
  rw [V_main_arg0]
  congr 1
  funext a
  apply Fin.ext
  match a with
  | ⟨0, _⟩ => show win0_0.index t 0 * 512 + 1 * p.val = 512 * (t.val / 100) + p.val; rw [hi.1]; omega
  | ⟨1, _⟩ => show win0_0.index t 1 * 512 + 1 * d.val = d.val; rw [hi.2]; omega

/-- Row q of the class-weight block. -/
theorem wblk_apply (c : Dev nD) (t : Fin cfg0.N) (q : Fin 1000) (d : Fin 512) :
    (iblk m c 1 t : Vec F S1000x512 .f32) (ix2 q d) = m ((c : Thread nD τ).loc main_arg1) (ix2 (bcol t q) d) := by
  have hi := index1 t
  unfold iblk
  rw [View.read_apply]
  show V m c main_arg1 _ = _
  rw [V_main_arg1]
  congr 1
  funext a
  apply Fin.ext
  match a with
  | ⟨0, _⟩ => show win0_1.index t 0 * 1000 + 1 * q.val = 1000 * (t.val % 100) + q.val; rw [hi.1]; omega
  | ⟨1, _⟩ => show win0_1.index t 1 * 512 + 1 * d.val = d.val; rw [hi.2]; omega

/-- The labels enter the region as a column: the reshape of the label vector. -/
theorem V_main_v0 (c : Dev nD) :
    V m c main_v0 = shapeCast S1024x1 (m ((c : Thread nD τ).loc main_arg2)) shapeCasts_S1024_S1024x1 := by
  show StableHlo.after hostOps0 (fun b => m (c, b)) (Proc.devRef .tc main_v0) = _
  after_results
  rfl

/-- Entry p of the label block. -/
theorem lblk_apply (c : Dev nD) (t : Fin cfg0.N) (p : Fin 512) :
    (iblk m c 2 t : Vec F S512x1 .i32) (ix2 p 0) = m ((c : Thread nD τ).loc main_arg2) (ix1 (brow t p)) := by
  have hi := index2 t
  unfold iblk
  rw [View.read_apply]
  show V m c main_v0 _ = _
  rw [V_main_v0]
  refine shapeCast_apply _ _ _ (ix1 (brow t p)) ?_
  rw [Shape.rowMajor_val_one, Shape.rowMajor_val_two]
  show 512 * (t.val / 100) + p.val = (win0_2.index t 0 * 512 + 1 * p.val) * 1 + (win0_2.index t 1 * 1 + 1 * 0)
  rw [hi.1, hi.2]; omega

end Cert.KernelIdeal.Blocks

end
-- ==== Proof.Payload.lean ====
/-
  The kernel body's arithmetic read at an index, at the extended reals: for row p of the batch tile
  and column q of the class tile, the product of the two normalised rows is the specification's
  cosine, the scaled select is its logit, and the three stores into the carried buffers are one
  step of the tile-by-tile recurrence for row p.
-/
import proofs.«402029_j82085414961612_1_alg».proof.Proof.Gen.KernelIdeal.Skeleton
import proofs.«402029_j82085414961612_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Cert.ArcFace
open Idealize.ShloMosaic Idealize.ShloMosaic.ValueIdx

/-- Column q of the tile whose number is the word `arg1`, compared as 32-bit words with a label. -/
def hitWord (arg1 lab : BitVec 32) (q : Fin 1000) : Bool :=
  decide (arg1 * 1000#32 + BitVec.ofNat 32 q.val = lab)

/-- For tile k < 100 and a label below 100000 the word comparison is the comparison of numbers. -/
theorem hitWord_eq (k : ℕ) (hk : k < 100) (l : Fin 100000) (q : Fin 1000) :
    hitWord (BitVec.ofNat 32 k) (BitVec.ofNat 32 l.val) q = hits l k q := by
  unfold hitWord hits
  have hq := q.isLt
  have hl := l.isLt
  refine decide_eq_decide.mpr ⟨fun h => ?_, fun h => ?_⟩
  · have h' := congrArg BitVec.toNat h
    simp only [BitVec.toNat_add, BitVec.toNat_mul, BitVec.toNat_ofNat] at h'
    omega
  · apply BitVec.eq_of_toNat_eq
    simp only [BitVec.toNat_add, BitVec.toNat_mul, BitVec.toNat_ofNat]
    omega

/-- The logit of row p against column q of the tile, from the three loaded blocks. -/
def tileLogit (arg1 : BitVec 32) (x0 : Vec Ideal S512x512 .f32) (x1 : Vec Ideal S1000x512 .f32) (x2 : Vec Ideal S512x1 .i32)
    (p : Fin 512) (q : Fin 1000) : EReal :=
  logit (hitWord arg1 (x2 (ix2 p 0)) q) (cosine (fun d => x0 (ix2 p d)) (fun d => x1 (ix2 q d)))

/-! ## Layout operations read at coordinates -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Layout

/-! ## A lane sum and a lane maximum of a matrix, read at a row -/

/-- The sum along the rows of an `[a, b]` matrix, at row `p`, is the sum of that row's entries. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ d : Fin b, v (ix2 p d) :=
  (Ideal.multiReduction_add_single v acc h hφ hacc (ix1 p)).trans
    (Finset.sum_congr rfl fun k _ => congrArg v (funext fun c => Fin.ext (by
      match c with
      | ⟨0, _⟩ => rfl
      | ⟨1, _⟩ => rfl)))

/-- The maximum along the rows of an `[a, b]` matrix, at row `p`, is the fold of `max` over that row's entries. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun d => v (ix2 p d)) :=
  (Ideal.multiReduction_maximumf_single v acc h hφ hacc (ix1 p)).trans
    (congrArg (Finset.fold max (Ideal.ofBits φ acc) · (Finset.univ : Finset (Fin b))) (funext fun k => congrArg v (funext fun c => Fin.ext (by
      match c with
      | ⟨0, _⟩ => rfl
      | ⟨1, _⟩ => rfl))))

/-- What the first tile's reset stores: −∞, 0, 0. -/
theorem reset_mx (p : Fin 512) : (k0_pay3 (F := Ideal)) (ix2 p 0) = Run.init.mx := by
  unfold k0_pay3
  exact (congrFun (shapeCast_self _ shapeCasts_S512x1_S512x1) (ix2 p 0)).trans rfl
theorem reset_sm (p : Fin 512) : (k0_pay4 (F := Ideal)) (ix2 p 0) = Run.init.sm := by
  unfold k0_pay4
  exact (congrFun (shapeCast_self _ shapeCasts_S512x1_S512x1) (ix2 p 0)).trans rfl
theorem reset_pk (p : Fin 512) : (k0_pay5 (F := Ideal)) (ix2 p 0) = Run.init.pk := by
  unfold k0_pay5
  exact (congrFun (shapeCast_self _ shapeCasts_S512x1_S512x1) (ix2 p 0)).trans rfl

/-! ## The tile's product of the two blocks, read at an entry -/

theorem lhs_dot_0 (i : S512x1000.Idx) (q : dot_S512x512_S1000x512_S512x1000_1_1_0_0_n_n.contr.Idx) :
    (dot_S512x512_S1000x512_S512x1000_1_1_0_0_n_n.lhsIdx i q 0).val = (i 0).val := by
  unfold DotDims.lhsIdx
  rw [dif_neg (show ¬(0 : Fin S512x512.rank) ∈ dot_S512x512_S1000x512_S512x1000_1_1_0_0_n_n.lhsBatch by decide), dif_pos (show (0 : Fin S512x512.rank) ∈ dot_S512x512_S1000x512_S512x1000_1_1_0_0_n_n.lhsNonContracting by decide)]
  rfl
theorem lhs_dot_1 (i : S512x1000.Idx) (q : dot_S512x512_S1000x512_S512x1000_1_1_0_0_n_n.contr.Idx) :
    (dot_S512x512_S1000x512_S512x1000_1_1_0_0_n_n.lhsIdx i q 1).val = (q ⟨0, by decide⟩).val :=
  dot_S512x512_S1000x512_S512x1000_1_1_0_0_n_n.lhsIdx_val_of_single rfl i q
theorem rhs_dot_0 (i : S512x1000.Idx) (q : dot_S512x512_S1000x512_S512x1000_1_1_0_0_n_n.contr.Idx) :
    (dot_S512x512_S1000x512_S512x1000_1_1_0_0_n_n.rhsIdx i q 0).val = (i 1).val := by
  unfold DotDims.rhsIdx
  rw [dif_neg (show ¬(0 : Fin S1000x512.rank) ∈ dot_S512x512_S1000x512_S512x1000_1_1_0_0_n_n.rhsBatch by decide), dif_pos (show (0 : Fin S1000x512.rank) ∈ dot_S512x512_S1000x512_S512x1000_1_1_0_0_n_n.rhsNonContracting by decide)]
  rfl
theorem rhs_dot_1 (i : S512x1000.Idx) (q : dot_S512x512_S1000x512_S512x1000_1_1_0_0_n_n.contr.Idx) :
    (dot_S512x512_S1000x512_S512x1000_1_1_0_0_n_n.rhsIdx i q 1).val = (q ⟨0, by decide⟩).val :=
  dot_S512x512_S1000x512_S512x1000_1_1_0_0_n_n.rhsIdx_val_of_single rfl i q

/-- The product of a `[512, 512]` block with the transpose of a `[1000, 512]` block into the zero accumulator, at
    `(p, q)`: the sum over `d` of row `p` of the first times row `q` of the second. -/
theorem matmul_tile_apply {φ₁ φ₂ : FTy} (l : FVec Ideal S512x512 φ₁) (r : FVec Ideal S1000x512 φ₂) (p : Fin 512) (q : Fin 1000) :
    matmul dot_S512x512_S1000x512_S512x1000_1_1_0_0_n_n none l r (constant (F := Ideal) S512x1000 .f32 0x00000000#32) (ix2 p q)
      = ∑ d : Fin 512, l (ix2 p d) * r (ix2 q d) := by
  simp only [matmul]
  rw [Ideal.matmul_constant_zero_apply, ← Equiv.sum_comp (ValueIdx.contrEquiv1 dot_S512x512_S1000x512_S512x1000_1_1_0_0_n_n 512 rfl rfl).symm]
  refine Finset.sum_congr rfl fun k _ => ?_
  have hk := ValueIdx.contrEquiv1_symm_val dot_S512x512_S1000x512_S512x1000_1_1_0_0_n_n 512 rfl rfl k
  have el : dot_S512x512_S1000x512_S512x1000_1_1_0_0_n_n.lhsIdx (ix2 p q) ((ValueIdx.contrEquiv1 dot_S512x512_S1000x512_S512x1000_1_1_0_0_n_n 512 rfl rfl).symm k) = ix2 p k := funext fun a => Fin.ext (by
    match a with
    | ⟨0, _⟩ => exact lhs_dot_0 _ _
    | ⟨1, _⟩ => exact (lhs_dot_1 _ _).trans hk)
  have er : dot_S512x512_S1000x512_S512x1000_1_1_0_0_n_n.rhsIdx (ix2 p q) ((ValueIdx.contrEquiv1 dot_S512x512_S1000x512_S512x1000_1_1_0_0_n_n 512 rfl rfl).symm k) = ix2 q k := funext fun a => Fin.ext (by
    match a with
    | ⟨0, _⟩ => exact rhs_dot_0 _ _
    | ⟨1, _⟩ => exact (rhs_dot_1 _ _).trans hk)
  rw [el, er]

/-! ## The cosine tile -/

/-- A block of rows of length 512, each divided by its Euclidean norm kept above the small constant (and then
    narrowed, which changes no extended real): at `(p, d)` it is the row's entry over the row's clipped norm. -/
theorem normalised_apply {a : ℕ} (x : FVec Ideal ⟨2, ![a, 512]⟩ .f32)
    (hr : (⟨2, ![a, 512]⟩ : Shape).Reduces [1] ⟨1, ![a]⟩) (hc : (⟨1, ![a]⟩ : Shape).ShapeCasts ⟨2, ![a, 1]⟩)
    (hb : (⟨2, ![a, 1]⟩ : Shape).Broadcasts ⟨2, ![a, 512]⟩) (hlt : FTy.bits .bf16 < FTy.bits .f32) (p : Fin a) (d : Fin 512) :
    (truncf .bf16 (divf x (broadcastTo ⟨2, ![a, 512]⟩
        (maximumf (sqrt (shapeCast ⟨2, ![a, 1]⟩ (multiReduction .add [1] ⟨1, ![a]⟩ (mulf x x) 0x00000000#32 hr (.inl rfl) rfl) hc))
          (broadcast ⟨2, ![a, 1]⟩ (Scalar.ofBits .f32 0x2B8CBCCC#32))) hb)) hlt : FVec Ideal ⟨2, ![a, 512]⟩ .bf16) (ix2 p d)
      = Ideal.div (x (ix2 p d)) (clipNorm (fun e => x (ix2 p e))) := by
  show Ideal.div (x (ix2 p d)) (broadcastTo ⟨2, ![a, 512]⟩ _ hb (ix2 p d)) = _
  refine congrArg (Ideal.div (x (ix2 p d))) ?_
  refine (broadcastTo_a1_ab_apply _ hb p d).trans ?_
  show max (Ideal.sqrt (shapeCast ⟨2, ![a, 1]⟩ _ hc (ix2 p (0 : Fin 1)))) kEps = max (Ideal.sqrt _) kEps
  refine congrArg (fun t => max (Ideal.sqrt t) kEps) ?_
  refine (shapeCast_a_a1_apply _ hc p 0).trans ?_
  exact laneSum_apply (mulf x x) _ hr _ _ p

variable (arg1 : BitVec 32) (x0 : Vec Ideal S512x512 .f32) (x1 : Vec Ideal S1000x512 .f32) (x2 : Vec Ideal S512x1 .i32)

/-- The tile's cosine matrix at `(p, q)`: the cosine of row `p` of the batch block and row `q` of the class block. -/
theorem cos_tile (p : Fin 512) (q : Fin 1000) :
    k0_pay6 (F := Ideal) x0 x1 (ix2 p q) = cosine (fun d => x0 (ix2 p d)) (fun d => x1 (ix2 q d)) := by
  unfold k0_pay6
  refine (matmul_tile_apply _ _ p q).trans ?_
  unfold cosine
  refine Finset.sum_congr rfl fun d _ => ?_
  refine congrArg₂ (· * ·) ?_ ?_
  · exact normalised_apply x0 _ _ _ _ p d
  · exact normalised_apply x1 _ _ _ _ q d

/-! ## The label compare, and a select on a decided bit -/

/-- `arith.select` on the bit of a Boolean is the `if` on it. -/
theorem select_ofBool {α : Type} (b : Bool) (x y : α) : Scalar.select (BitVec.ofBool b) x y = if b then x else y := by
  cases b
  · exact select_zero x y
  · exact select_one x y

/-- The compare of the tile's column numbers with the row's label, at `(p, q)`: the bit of `hitWord`. -/
theorem pay9_apply (p : Fin 512) (q : Fin 1000) :
    k0_pay9 (F := Ideal) arg1 x2 (ix2 p q) = BitVec.ofBool (hitWord arg1 (x2 (ix2 p 0)) q) := by
  unfold k0_pay9
  show IntOp.cmpi .eq (IntOp.addi (Scalar.muli arg1 1000#32) (iota .tc S512x1000 32 [1] iota_S512x1000_d1_w32 (ix2 p q)))
      (broadcastTo S512x1000 (shapeCast S512x1 x2 shapeCasts_S512x1_S512x1) broadcasts_S512x1_S512x1000 (ix2 p q)) = _
  rw [iota_single_apply, broadcastTo_a1_ab_apply, shapeCast_self]
  show BitVec.ofBool (arg1 * 1000#32 + BitVec.ofNat 32 q.val == x2 (ix2 p 0)) = _
  rw [beq_eq_decide]
  rfl

/-! ## The margin, the scaled logits, and the label's pick at an entry -/

/-- The margin's first branch at an entry, from the cosine tile's entry. -/
theorem pay7_apply (j : S512x1000.Idx) :
    k0_pay7 (F := Ideal) x0 x1 j
      = k0_pay6 (F := Ideal) x0 x1 j * kCos
        - Ideal.sqrt (min kOne (max kZero (kOne - k0_pay6 (F := Ideal) x0 x1 j * k0_pay6 (F := Ideal) x0 x1 j))) * kSin := by
  unfold k0_pay7
  generalize k0_pay6 (F := Ideal) x0 x1 = c
  rfl

/-- The threshold compare at an entry. -/
theorem pay8_apply (j : S512x1000.Idx) :
    k0_pay8 (F := Ideal) x0 x1 j = Ideal.cmp .ogt (k0_pay6 (F := Ideal) x0 x1 j) kTh := by
  unfold k0_pay8
  generalize k0_pay6 (F := Ideal) x0 x1 = c
  rfl

/-- The scaled logits at an entry, over any cosine tile, margin branch and threshold bit. -/
theorem pay10_apply (v23 v36 : FVec Ideal S512x1000 .f32) (v38 : IVec S512x1000 1) (c14 : Ideal .f32) (j : S512x1000.Idx) :
    k0_pay10 (F := Ideal) arg1 v23 v36 v38 c14 x2 j
      = kScale * Scalar.select (k0_pay9 (F := Ideal) arg1 x2 j) (Scalar.select (v38 j) (v36 j) (v23 j - c14)) (v23 j) := rfl

/-- The label's pick at an entry: the scaled logit where the compare holds, zero elsewhere. -/
theorem pay14_apply (v23 v36 : FVec Ideal S512x1000 .f32) (v38 : IVec S512x1000 1) (c14 : Ideal .f32) (j : S512x1000.Idx) :
    k0_pay14 (F := Ideal) arg1 v23 v36 v38 c14 x2 j
      = Scalar.select (k0_pay9 (F := Ideal) arg1 x2 j) (k0_pay10 (F := Ideal) arg1 v23 v36 v38 c14 x2 j) kZero := rfl

/-- The scaled logit of row `p` against column `q` of the tile. -/
theorem tile_logit (p : Fin 512) (q : Fin 1000) :
    k0_pay10 (F := Ideal) arg1 (k0_pay6 x0 x1) (k0_pay7 x0 x1) (k0_pay8 x0 x1) (Scalar.ofBits .f32 0x3E757744#32) x2 (ix2 p q)
      = tileLogit arg1 x0 x1 x2 p q := by
  rw [pay10_apply, pay7_apply, pay8_apply, pay9_apply, cos_tile, select_ofBool]
  rfl

/-- The label's pick of row `p` at column `q`. -/
theorem tile_pick (p : Fin 512) (q : Fin 1000) :
    k0_pay14 (F := Ideal) arg1 (k0_pay6 x0 x1) (k0_pay7 x0 x1) (k0_pay8 x0 x1) (Scalar.ofBits .f32 0x3E757744#32) x2 (ix2 p q)
      = if hitWord arg1 (x2 (ix2 p 0)) q then tileLogit arg1 x0 x1 x2 p q else kZero := by
  rw [pay14_apply, tile_logit, pay9_apply, select_ofBool]

/-! ## One step of the recurrence, projection by projection -/

theorem step_mx_def (s : Run) (t : Fin 1000 → EReal) (hit : Fin 1000 → Bool) :
    (s.step t hit).mx = max s.mx ((Finset.univ : Finset (Fin 1000)).fold max kNegInf t) := rfl
theorem step_sm_def (s : Run) (t : Fin 1000 → EReal) (hit : Fin 1000 → Bool) :
    (s.step t hit).sm = Ideal.exp (s.mx - (s.step t hit).mx) * s.sm + ∑ j, Ideal.exp (t j - (s.step t hit).mx) := rfl
theorem step_pk_def (s : Run) (t : Fin 1000 → EReal) (hit : Fin 1000 → Bool) :
    (s.step t hit).pk = s.pk + ∑ j, (if hit j then t j else kZero) := rfl

/-- The running maximum after the tile, for row `p`: the larger of the carried one and the tile's largest logit. -/
theorem pay11_apply (m : Vec Ideal S512x1 .f32) (p : Fin 512) :
    k0_pay11 (F := Ideal) arg1 (k0_pay6 x0 x1) (k0_pay7 x0 x1) (k0_pay8 x0 x1) (Scalar.ofBits .f32 0x3E757744#32) x2 m (ix2 p 0)
      = max (m (ix2 p 0)) ((Finset.univ : Finset (Fin 1000)).fold max kNegInf (tileLogit arg1 x0 x1 x2 p)) := by
  unfold k0_pay11
  show max (m (ix2 p 0)) (shapeCast S512x1 _ shapeCasts_S512_S512x1 (ix2 p (0 : Fin 1))) = _
  refine congrArg (max (m (ix2 p 0))) ?_
  refine (shapeCast_a_a1_apply _ shapeCasts_S512_S512x1 p 0).trans ?_
  refine (laneMax_apply _ _ reduces_S512x1000_S512 _ _ p).trans ?_
  exact congrArg (fun t => Finset.fold max kNegInf t Finset.univ) (funext fun q => tile_logit arg1 x0 x1 x2 p q)

/-- The new running maximum of row p. -/
theorem step_mx (m : Vec Ideal S512x1 .f32) (p : Fin 512) (s : Run) (hm : m (ix2 p 0) = s.mx) :
    k0_pay13 (F := Ideal) arg1 (k0_pay6 x0 x1) (k0_pay7 x0 x1) (k0_pay8 x0 x1) (Scalar.ofBits .f32 0x3E757744#32) x2 m (ix2 p 0)
      = (s.step (tileLogit arg1 x0 x1 x2 p) (hitWord arg1 (x2 (ix2 p 0)))).mx := by
  unfold k0_pay13
  refine (congrFun (shapeCast_self _ shapeCasts_S512x1_S512x1) (ix2 p 0)).trans ?_
  refine (pay11_apply arg1 x0 x1 x2 m p).trans ?_
  rw [hm, step_mx_def]

/-- The new running sum of row p. -/
theorem step_sm (m l : Vec Ideal S512x1 .f32) (p : Fin 512) (s : Run) (hm : m (ix2 p 0) = s.mx) (hl : l (ix2 p 0) = s.sm) :
    k0_pay12 (F := Ideal) arg1 (k0_pay6 x0 x1) (k0_pay7 x0 x1) (k0_pay8 x0 x1) (Scalar.ofBits .f32 0x3E757744#32) x2 m m l (ix2 p 0)
      = (s.step (tileLogit arg1 x0 x1 x2 p) (hitWord arg1 (x2 (ix2 p 0)))).sm := by
  have h11 : k0_pay11 (F := Ideal) arg1 (k0_pay6 x0 x1) (k0_pay7 x0 x1) (k0_pay8 x0 x1) (Scalar.ofBits .f32 0x3E757744#32) x2 m (ix2 p 0)
      = (s.step (tileLogit arg1 x0 x1 x2 p) (hitWord arg1 (x2 (ix2 p 0)))).mx := by
    rw [pay11_apply, hm, step_mx_def]
  unfold k0_pay12
  refine (congrFun (shapeCast_self _ shapeCasts_S512x1_S512x1) (ix2 p 0)).trans ?_
  rw [step_sm_def]
  show Ideal.exp (m (ix2 p 0) - _) * l (ix2 p 0) + shapeCast S512x1 _ shapeCasts_S512_S512x1 (ix2 p (0 : Fin 1)) = _
  refine congrArg₂ (· + ·) ?_ ?_
  · rw [h11, hm, hl]
  · refine (shapeCast_a_a1_apply _ shapeCasts_S512_S512x1 p 0).trans ?_
    refine (laneSum_apply _ _ reduces_S512x1000_S512 _ _ p).trans ?_
    refine Finset.sum_congr rfl fun j _ => ?_
    show Ideal.exp (_ - broadcastTo S512x1000 _ broadcasts_S512x1_S512x1000 (ix2 p j)) = _
    rw [broadcastTo_a1_ab_apply, h11, tile_logit]

/-- The new running pick of row p. -/
theorem step_pk (a : Vec Ideal S512x1 .f32) (p : Fin 512) (s : Run) (ha : a (ix2 p 0) = s.pk) :
    k0_pay1 (F := Ideal) a (k0_pay14 arg1 (k0_pay6 x0 x1) (k0_pay7 x0 x1) (k0_pay8 x0 x1) (Scalar.ofBits .f32 0x3E757744#32) x2) (ix2 p 0)
      = (s.step (tileLogit arg1 x0 x1 x2 p) (hitWord arg1 (x2 (ix2 p 0)))).pk := by
  unfold k0_pay1
  refine (congrFun (shapeCast_self _ shapeCasts_S512x1_S512x1) (ix2 p 0)).trans ?_
  rw [step_pk_def]
  show a (ix2 p 0) + shapeCast S512x1 _ shapeCasts_S512_S512x1 (ix2 p (0 : Fin 1)) = _
  refine congrArg₂ (· + ·) ha ?_
  refine (shapeCast_a_a1_apply _ shapeCasts_S512_S512x1 p 0).trans ?_
  refine (laneSum_apply _ _ reduces_S512x1000_S512 _ _ p).trans ?_
  exact Finset.sum_congr rfl fun j _ => tile_pick arg1 x0 x1 x2 p j

/-- What the last tile's point writes for row p: log of the sum, plus the maximum, minus the pick. -/
theorem out_apply (l m a : Vec Ideal S512x1 .f32) (p : Fin 512) (s : Run)
    (hm : m (ix2 p 0) = s.mx) (hl : l (ix2 p 0) = s.sm) (ha : a (ix2 p 0) = s.pk) :
    k0_pay2 (F := Ideal) l m a (ix2 p 0) = s.out := by
  show Ideal.log (l (ix2 p 0)) + m (ix2 p 0) - a (ix2 p 0) = _
  rw [hl, hm, ha]
  rfl

end Cert.KernelIdeal.Pay

end
-- ==== Proof.Inv.lean ====
/-
  What the three carried buffers hold after every grid point, and what the output block holds at
  a last class tile.

  Point t works on batch tile t / 100 and class tile k = t % 100. After it, entry p of the three
  buffers is the tile-by-tile recurrence of the specification for batch row 512·(t/100) + p after
  k + 1 tiles: by induction on t — at k = 0 the body resets and steps once, elsewhere it steps once
  from what point t − 1 left, which belongs to the same batch tile. At k = 99 the output block is
  log(sum) + maximum − pick of that state, which is the row's loss because every logit is a real
  number.
-/
import proofs.«402029_j82085414961612_1_alg».proof.Proof.Spec
import proofs.«402029_j82085414961612_1_alg».proof.Proof.Algebra
import proofs.«402029_j82085414961612_1_alg».proof.Proof.Pieces
import proofs.«402029_j82085414961612_1_alg».proof.Proof.Blocks
import proofs.«402029_j82085414961612_1_alg».proof.Proof.Payload

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.KernelIdeal.Pieces Cert.KernelIdeal.Blocks Cert.KernelIdeal.Pay Cert.ArcFace

/-! ## One step of the body at row p, from blocks known entry by entry -/

/-- The tile's logits and label marks of row p are the specification's tile k of batch row r, when
    the blocks hold row r of the embeddings, tile k of the class weights and row r's label. -/
theorem tile_eq (x0 : Vec Ideal S512x512 .f32) (x1 : Vec Ideal S1000x512 .f32) (x2 : Vec Ideal S512x1 .i32)
    (X : (⟨2, ![1024, 512]⟩ : Shape).Idx → EReal) (W : (⟨2, ![100000, 512]⟩ : Shape).Idx → EReal)
    (lab : Fin 1024 → Fin 100000) (r : Fin 1024) (k : ℕ) (hk : k < 100) (p : Fin 512)
    (hx0 : ∀ d, x0 (ix2 p d) = X (ix2 r d)) (hx1 : ∀ q d, x1 (ix2 q d) = W (ix2 (col k q hk) d))
    (hx2 : x2 (ix2 p 0) = BitVec.ofNat 32 (lab r).val) :
    tileLogit (BitVec.ofNat 32 k) x0 x1 x2 p = tiles (logits X W lab r) k
      ∧ hitWord (BitVec.ofNat 32 k) (x2 (ix2 p 0)) = hits (lab r) k := by
  have hh : hitWord (BitVec.ofNat 32 k) (x2 (ix2 p 0)) = hits (lab r) k := by
    funext q; rw [hx2]; exact hitWord_eq k hk (lab r) q
  refine ⟨?_, hh⟩
  funext q
  unfold tileLogit tiles
  rw [dif_pos hk, hh]
  unfold logits hits
  have e1 : (fun d => x0 (ix2 p d)) = rowOf X r := funext fun d => hx0 d
  have e2 : (fun d => x1 (ix2 q d)) = rowOf W (col k q hk) := funext fun d => hx1 q d
  rw [e1, e2]
  congr 1
  refine decide_eq_decide.mpr ⟨fun h => Fin.ext h, fun h => ?_⟩
  have := congrArg Fin.val h
  exact this

/-- The three stores of the body, read at row p, are one step of the recurrence. -/
theorem step_all (x0 : Vec Ideal S512x512 .f32) (x1 : Vec Ideal S1000x512 .f32) (x2 : Vec Ideal S512x1 .i32)
    (X : (⟨2, ![1024, 512]⟩ : Shape).Idx → EReal) (W : (⟨2, ![100000, 512]⟩ : Shape).Idx → EReal)
    (lab : Fin 1024 → Fin 100000) (r : Fin 1024) (k : ℕ) (hk : k < 100) (p : Fin 512)
    (hx0 : ∀ d, x0 (ix2 p d) = X (ix2 r d)) (hx1 : ∀ q d, x1 (ix2 q d) = W (ix2 (col k q hk) d))
    (hx2 : x2 (ix2 p 0) = BitVec.ofNat 32 (lab r).val)
    (mS lS aS : Vec Ideal S512x1 .f32) (s : Run)
    (hm : mS (ix2 p 0) = s.mx) (hl : lS (ix2 p 0) = s.sm) (ha : aS (ix2 p 0) = s.pk) :
    k0_pay13 (F := Ideal) (BitVec.ofNat 32 k) (k0_pay6 x0 x1) (k0_pay7 x0 x1) (k0_pay8 x0 x1) (Scalar.ofBits .f32 0x3E757744#32) x2 mS (ix2 p 0)
        = (s.step (tiles (logits X W lab r) k) (hits (lab r) k)).mx
      ∧ k0_pay12 (F := Ideal) (BitVec.ofNat 32 k) (k0_pay6 x0 x1) (k0_pay7 x0 x1) (k0_pay8 x0 x1) (Scalar.ofBits .f32 0x3E757744#32) x2 mS mS lS (ix2 p 0)
        = (s.step (tiles (logits X W lab r) k) (hits (lab r) k)).sm
      ∧ k0_pay1 (F := Ideal) aS (k0_pay14 (BitVec.ofNat 32 k) (k0_pay6 x0 x1) (k0_pay7 x0 x1) (k0_pay8 x0 x1) (Scalar.ofBits .f32 0x3E757744#32) x2) (ix2 p 0)
        = (s.step (tiles (logits X W lab r) k) (hits (lab r) k)).pk := by
  obtain ⟨e1, e2⟩ := tile_eq x0 x1 x2 X W lab r k hk p hx0 hx1 hx2
  rw [← e1, ← e2]
  exact ⟨step_mx (BitVec.ofNat 32 k) x0 x1 x2 mS p s hm, step_sm (BitVec.ofNat 32 k) x0 x1 x2 mS lS p s hm hl,
    step_pk (BitVec.ofNat 32 k) x0 x1 x2 aS p s ha⟩

/-! ## The state after each grid point -/

variable (m : (ℓ : Loc nD τ sig) → Buf (Elt Ideal) ℓ)

/-- The embeddings, the class weights and the label words, as launched. -/
abbrev Xa (c : Dev nD) : (⟨2, ![1024, 512]⟩ : Shape).Idx → EReal := m ((c : Thread nD τ).loc main_arg0)
abbrev Wa (c : Dev nD) : (⟨2, ![100000, 512]⟩ : Shape).Idx → EReal := m ((c : Thread nD τ).loc main_arg1)
abbrev La (c : Dev nD) : (⟨1, ![1024]⟩ : Shape).Idx → BitVec 32 := m ((c : Thread nD τ).loc main_arg2)

/-- Batch row `r`'s state after its first `n` class tiles. -/
def stAt (c : Dev nD) (lab : Fin 1024 → Fin 100000) (r : Fin 1024) (n : ℕ) : Run :=
  Run.after (tiles (logits (Xa m c) (Wa m c) lab r)) (hits (lab r)) n

theorem stAt_succ (c : Dev nD) (lab : Fin 1024 → Fin 100000) (r : Fin 1024) (n : ℕ) :
    stAt m c lab r (n + 1) = (stAt m c lab r n).step (tiles (logits (Xa m c) (Wa m c) lab r) n) (hits (lab r) n) := rfl

/-- The step at point t, row p, from any buffers holding a state of that batch row. -/
theorem step_point (c : Dev nD) (lab : Fin 1024 → Fin 100000)
    (hlab : ∀ r : Fin 1024, La m c (ix1 r) = BitVec.ofNat 32 (lab r).val)
    (t : Fin cfg0.N) (p : Fin 512) (mS lS aS : Vec Ideal S512x1 .f32) (s : Run)
    (hm : mS (ix2 p 0) = s.mx) (hl : lS (ix2 p 0) = s.sm) (ha : aS (ix2 p 0) = s.pk) :
    k0_pay13 (F := Ideal) (BitVec.ofNat 32 ((grid0.coords t) 1).val) (k0_pay6 (iblk m c 0 t) (iblk m c 1 t)) (k0_pay7 (iblk m c 0 t) (iblk m c 1 t)) (k0_pay8 (iblk m c 0 t) (iblk m c 1 t)) (Scalar.ofBits .f32 0x3E757744#32) (iblk m c 2 t) mS (ix2 p 0)
        = (s.step (tiles (logits (Xa m c) (Wa m c) lab (brow t p)) (t.val % 100)) (hits (lab (brow t p)) (t.val % 100))).mx
      ∧ k0_pay12 (F := Ideal) (BitVec.ofNat 32 ((grid0.coords t) 1).val) (k0_pay6 (iblk m c 0 t) (iblk m c 1 t)) (k0_pay7 (iblk m c 0 t) (iblk m c 1 t)) (k0_pay8 (iblk m c 0 t) (iblk m c 1 t)) (Scalar.ofBits .f32 0x3E757744#32) (iblk m c 2 t) mS mS lS (ix2 p 0)
        = (s.step (tiles (logits (Xa m c) (Wa m c) lab (brow t p)) (t.val % 100)) (hits (lab (brow t p)) (t.val % 100))).sm
      ∧ k0_pay1 (F := Ideal) aS (k0_pay14 (BitVec.ofNat 32 ((grid0.coords t) 1).val) (k0_pay6 (iblk m c 0 t) (iblk m c 1 t)) (k0_pay7 (iblk m c 0 t) (iblk m c 1 t)) (k0_pay8 (iblk m c 0 t) (iblk m c 1 t)) (Scalar.ofBits .f32 0x3E757744#32) (iblk m c 2 t)) (ix2 p 0)
        = (s.step (tiles (logits (Xa m c) (Wa m c) lab (brow t p)) (t.val % 100)) (hits (lab (brow t p)) (t.val % 100))).pk := by
  rw [coord1 t]
  exact step_all (iblk m c 0 t) (iblk m c 1 t) (iblk m c 2 t) (Xa m c) (Wa m c) lab (brow t p) (t.val % 100)
    (Nat.mod_lt _ (by decide)) p (fun d => xblk_apply m c t p d) (fun q d => wblk_apply m c t q d)
    ((lblk_apply m c t p).trans (hlab (brow t p))) mS lS aS s hm hl ha

/-- The same, aimed at the state one tile later. -/
theorem step_to (c : Dev nD) (lab : Fin 1024 → Fin 100000)
    (hlab : ∀ r : Fin 1024, La m c (ix1 r) = BitVec.ofNat 32 (lab r).val)
    (t : Fin cfg0.N) (p : Fin 512) (mS lS aS : Vec Ideal S512x1 .f32)
    (hm : mS (ix2 p 0) = (stAt m c lab (brow t p) (t.val % 100)).mx)
    (hl : lS (ix2 p 0) = (stAt m c lab (brow t p) (t.val % 100)).sm)
    (ha : aS (ix2 p 0) = (stAt m c lab (brow t p) (t.val % 100)).pk) :
    k0_pay13 (F := Ideal) (BitVec.ofNat 32 ((grid0.coords t) 1).val) (k0_pay6 (iblk m c 0 t) (iblk m c 1 t)) (k0_pay7 (iblk m c 0 t) (iblk m c 1 t)) (k0_pay8 (iblk m c 0 t) (iblk m c 1 t)) (Scalar.ofBits .f32 0x3E757744#32) (iblk m c 2 t) mS (ix2 p 0)
        = (stAt m c lab (brow t p) (t.val % 100 + 1)).mx
      ∧ k0_pay12 (F := Ideal) (BitVec.ofNat 32 ((grid0.coords t) 1).val) (k0_pay6 (iblk m c 0 t) (iblk m c 1 t)) (k0_pay7 (iblk m c 0 t) (iblk m c 1 t)) (k0_pay8 (iblk m c 0 t) (iblk m c 1 t)) (Scalar.ofBits .f32 0x3E757744#32) (iblk m c 2 t) mS mS lS (ix2 p 0)
        = (stAt m c lab (brow t p) (t.val % 100 + 1)).sm
      ∧ k0_pay1 (F := Ideal) aS (k0_pay14 (BitVec.ofNat 32 ((grid0.coords t) 1).val) (k0_pay6 (iblk m c 0 t) (iblk m c 1 t)) (k0_pay7 (iblk m c 0 t) (iblk m c 1 t)) (k0_pay8 (iblk m c 0 t) (iblk m c 1 t)) (Scalar.ofBits .f32 0x3E757744#32) (iblk m c 2 t)) (ix2 p 0)
        = (stAt m c lab (brow t p) (t.val % 100 + 1)).pk :=
  step_point m c lab hlab t p mS lS aS (stAt m c lab (brow t p) (t.val % 100)) hm hl ha

/-- THE INVARIANT: after point n, entry p of the three carried buffers is the state of batch row
    512·(n/100) + p after n % 100 + 1 class tiles. -/
theorem inv (c : Dev nD) (lab : Fin 1024 → Fin 100000)
    (hlab : ∀ r : Fin 1024, La m c (ix1 r) = BitVec.ofNat 32 (lab r).val) :
    ∀ (n : ℕ) (hn : n < cfg0.N) (p : Fin 512),
      (outsAt0 m c n hn).2.1 (ix2 p 0) = (stAt m c lab (brow ⟨n, hn⟩ p) (n % 100 + 1)).mx
      ∧ (outsAt0 m c n hn).2.2.1 (ix2 p 0) = (stAt m c lab (brow ⟨n, hn⟩ p) (n % 100 + 1)).sm
      ∧ (outsAt0 m c n hn).2.2.2 (ix2 p 0) = (stAt m c lab (brow ⟨n, hn⟩ p) (n % 100 + 1)).pk
  | 0, hn, p => by
    rw [outsAt0_A m c ⟨0, hn⟩ rfl (show ¬(0 : ℕ) % 100 = 99 by decide)]
    dsimp only
    rw [sout_A_0, sout_A_1, sout_A_2]
    exact step_to m c lab hlab ⟨0, hn⟩ p (k0_pay3 (F := Ideal)) (k0_pay4 (F := Ideal)) (k0_pay5 (F := Ideal))
      (reset_mx p) (reset_sm p) (reset_pk p)
  | n + 1, hn, p => by
    have hN : cfg0.N = 200 := N_0
    have ih := inv c lab hlab n (Nat.lt_of_succ_lt hn) p
    by_cases h0 : (n + 1) % 100 = 0
    · have h1 : ¬(n + 1) % 100 = 99 := by omega
      rw [outsAt0_A m c ⟨n + 1, hn⟩ h0 h1]
      dsimp only
      rw [sout_A_0, sout_A_1, sout_A_2]
      refine step_to m c lab hlab ⟨n + 1, hn⟩ p (k0_pay3 (F := Ideal)) (k0_pay4 (F := Ideal)) (k0_pay5 (F := Ideal)) ?_ ?_ ?_
      · show _ = (stAt m c lab _ ((n + 1) % 100)).mx
        rw [h0]; exact reset_mx p
      · show _ = (stAt m c lab _ ((n + 1) % 100)).sm
        rw [h0]; exact reset_sm p
      · show _ = (stAt m c lab _ ((n + 1) % 100)).pk
        rw [h0]; exact reset_pk p
    · have hr : brow ⟨n, Nat.lt_of_succ_lt hn⟩ p = brow ⟨n + 1, hn⟩ p :=
        Fin.ext (by show 512 * (n / 100) + p.val = 512 * ((n + 1) / 100) + p.val; omega)
      have hk : n % 100 + 1 = (n + 1) % 100 := by omega
      rw [hr, hk] at ih
      by_cases h1 : (n + 1) % 100 = 99
      · rw [outsAt0_C m c ⟨n + 1, hn⟩ h0 h1]
        dsimp only
        rw [sout_C_0, sout_C_1, sout_C_2]
        exact step_to m c lab hlab ⟨n + 1, hn⟩ p _ _ _ ih.1 ih.2.1 ih.2.2
      · rw [outsAt0_B m c ⟨n + 1, hn⟩ h0 h1]
        dsimp only
        rw [sout_B_0, sout_B_1, sout_B_2]
        exact step_to m c lab hlab ⟨n + 1, hn⟩ p _ _ _ ih.1 ih.2.1 ih.2.2

/-- At a last class tile the output block's entry p is the loss of batch row 512·(t/100) + p. -/
theorem out_point (c : Dev nD) (lab : Fin 1024 → Fin 100000)
    (hlab : ∀ r : Fin 1024, La m c (ix1 r) = BitVec.ofNat 32 (lab r).val)
    (hX : ∀ i, ∃ r : ℝ, Xa m c i = r) (hW : ∀ i, ∃ r : ℝ, Wa m c i = r)
    (t : Fin cfg0.N) (h1 : t.val % 100 = 99) (p : Fin 512) :
    (outsAt0 m c t.val t.isLt).1 (ix2 p 0)
      = ((rowLoss (fun cc => (logits (Xa m c) (Wa m c) lab (brow t p) cc).toReal) (lab (brow t p)) : ℝ) : EReal) := by
  have h0 : ¬t.val % 100 = 0 := by omega
  have hi := inv m c lab hlab t.val t.isLt p
  rw [outsAt0_C m c t h0 h1] at hi ⊢
  dsimp only at hi ⊢
  rw [sout_C_0, sout_C_1, sout_C_2] at hi
  rw [out_C_3]
  refine (out_apply _ _ _ p _ hi.1 hi.2.1 hi.2.2).trans ?_
  rw [h1]
  show (Run.after (tiles (logits (Xa m c) (Wa m c) lab (brow t p))) (hits (lab (brow t p))) 100).out = _
  have hz : tiles (logits (Xa m c) (Wa m c) lab (brow t p))
      = tiles (fun cc => (((logits (Xa m c) (Wa m c) lab (brow t p) cc).toReal : ℝ) : EReal)) :=
    congrArg tiles (funext fun cc => logits_finite (Xa m c) (Wa m c) lab hX hW (brow t p) cc)
  rw [hz]
  exact run_out_eq _ (lab (brow t p))

end Cert.KernelIdeal.Inv

end
-- ==== Proof.Final.lean ====
/-
  The kernel's result. The output array is written back only at the last class tile of each batch
  tile, 512 rows at a time: the two write-backs cover its 1024 rows, so it ends as the column of
  row losses. The host lines after the region sum that column from 0 and divide by 1024: the
  specification's mean.
-/
import proofs.«402029_j82085414961612_1_alg».proof.Proof.Inv
import Idealize.ShloMosaic.Lib.Pipeline.Value
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Inv Cert.ArcFace

variable (m : (ℓ : Loc nD τ sig) → Buf (Elt Ideal) ℓ) (ρ : Dev nD → PrngReg)

/-- The loss of batch row r, from the launched arrays. -/
def rowLossOf (c : Dev nD) (lab : Fin 1024 → Fin 100000) (r : Fin 1024) : EReal :=
  ((rowLoss (fun cc => (logits (Xa m c) (Wa m c) lab r cc).toReal) (lab r) : ℝ) : EReal)

/-- The column of row losses. -/
def lossCol (c : Dev nD) (lab : Fin 1024 → Fin 100000) : (⟨2, ![1024, 1]⟩ : Shape).Idx → EReal :=
  fun j => rowLossOf m c lab ⟨(j 0).val, idx2_lt0 j⟩

/-- What a last class tile's point writes back is its 512 rows of that column. -/
theorem flushed_eq (c : Dev nD) (lab : Fin 1024 → Fin 100000)
    (hlab : ∀ r : Fin 1024, La m c (ix1 r) = BitVec.ofNat 32 (lab r).val)
    (hX : ∀ i, ∃ r : ℝ, Xa m c i = r) (hW : ∀ i, ∃ r : ℝ, Wa m c i = r)
    (t : Fin cfg0.N) (hf : (cfg0.win 3).flush t = true) :
    (dats m 0 c).flushed 3 t = ((cfg0.win 3).blk t).view.read (Elt Ideal) (lossCol m c lab) := by
  have h1 : t.val % 100 = 99 := (flush0_3 t).mp hf
  have hi := index3 t
  show (cfg0.win 3).cut (grid0.coords t) ((dats m 0 c).after 3 t) = _
  rw [after0_3]
  have key : ∀ p : Fin 512, (outsAt0 m c t.val t.isLt).1 (ix2 p 0)
      = lossCol m c lab (((cfg0.win 3).blk t).view.emb (ix2 p 0)) := by
    intro p
    rw [out_point m c lab hlab hX hW t h1 p]
    unfold lossCol rowLossOf
    have e : (⟨((((cfg0.win 3).blk t).view.emb (ix2 p 0)) 0).val, idx2_lt0 _⟩ : Fin 1024) = brow t p :=
      Fin.ext (by show win0_3.index t 0 * 512 + 1 * p.val = 512 * (t.val / 100) + p.val; rw [hi.1]; omega)
    rw [e]
  funext j
  have hj1 : (j 1).val < 1 := (j 1).isLt
  have hj : j = ix2 (⟨(j 0).val, (j 0).isLt⟩ : Fin 512) (0 : Fin 1) := by
    funext a
    match a with
    | ⟨0, _⟩ => rfl
    | ⟨1, _⟩ => exact Fin.ext (by show (j 1).val = 0; omega)
  rw [hj]
  exact key _

/-- Every row of the output array is in the block of its batch tile's last point. -/
theorem cover (i : (⟨2, ![1024, 1]⟩ : Shape).Idx) :
    ∃ t : Fin cfg0.N, (cfg0.win 3).flush t = true ∧ i ∈ ((cfg0.win 3).blk t).view.set := by
  have hN : cfg0.N = 200 := N_0
  have hi0 : (i 0).val < 1024 := (i 0).isLt
  have hi1 : (i 1).val < 1 := (i 1).isLt
  obtain ⟨t, ht⟩ : ∃ t : Fin cfg0.N, t.val = 100 * ((i 0).val / 512) + 99 := ⟨⟨_, by omega⟩, rfl⟩
  have hi := index3 t
  refine ⟨t, (flush0_3 t).mpr (by omega), ?_⟩
  show i ∈ ((View.whole main_v1).slice (win0_3.rect t)).set
  rw [View.set_slice_whole, Rect.mem_set_unit]
  intro a
  match a with
  | ⟨0, _⟩ =>
    show win0_3.index t 0 * 512 ≤ (i 0).val ∧ (i 0).val < win0_3.index t 0 * 512 + 512
    rw [hi.1]; omega
  | ⟨1, _⟩ =>
    show win0_3.index t 1 * 1 ≤ (i 1).val ∧ (i 1).val < win0_3.index t 1 * 1 + 1
    rw [hi.2]; omega

/-- The output array after the region: the column of row losses. -/
theorem final_col (c : Dev nD) (lab : Fin 1024 → Fin 100000)
    (hlab : ∀ r : Fin 1024, La m c (ix1 r) = BitVec.ofNat 32 (lab r).val)
    (hX : ∀ i, ∃ r : ℝ, Xa m c i = r) (hW : ∀ i, ∃ r : ℝ, Wa m c i = r) :
    (dats m 0 c).arrAt 3 cfg0.N = lossCol m c lab :=
  (dats m 0 c).arrAt_eq_of_cover 3 (lossCol m c lab) (flushed_eq m c lab hlab hX hW) cover

/-- The sum of the column from 0, divided by 1024, is the specification's loss. -/
theorem mean_eq (c : Dev nD) (lab : Fin 1024 → Fin 100000) (i : S_.Idx) :
    Host.divf (F := Ideal) (Host.reduceAdd (F := Ideal) (lossCol m c lab) (constant (F := Ideal) S_ .f32 0x00000000#32) reducesTo_S1024x1_S_d0_1 h_S_)
      (constant (F := Ideal) S_ .f32 0x44800000#32) i = loss (Xa m c) (Wa m c) lab := by
  generalize hy : lossCol m c lab = y0
  simp only [Host.divf, Host.reduceAdd, Ideal.hostReduceAdd_def, Ideal.hostDivf_def]
  rw [Ideal.hostReduceAdd_total reducesTo_S1024x1_S_d0_1 (fun b => b.elim0) y0 _ _]
  subst hy
  unfold loss
  rw [sum_idx2]
  simp only [Fin.sum_univ_one]
  rfl

/-- The result buffer after the host lines that follow the region. -/
theorem tail_eq (c : Dev nD) (lab : Fin 1024 → Fin 100000)
    (hlab : ∀ r : Fin 1024, La m c (ix1 r) = BitVec.ofNat 32 (lab r).val)
    (hX : ∀ i, ∃ r : ℝ, Xa m c i = r) (hW : ∀ i, ∃ r : ℝ, Wa m c i = r) :
    Pipeline.afterTail₀ cfgs (dats m) 0 (V0 m) [hostOps1] c main_v3 = fun _ => loss (Xa m c) (Wa m c) lab := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v1)
      = lossCol m c lab :=
    (Pipeline.withArrays_arr spec0 launch0.win.arr_inj c _ _ 3).trans (final_col m c lab hlab hX hW)
  rw [e]
  funext i
  exact mean_eq m c lab i

/-- THE KERNEL'S RUN: with finite inputs and every label word the word of a class number, every
    weakly fair execution ends with the result at the specification's loss and the three arguments
    unchanged. -/
theorem run (lab : Dev nD → Fin 1024 → Fin 100000)
    (hlab : ∀ c r, La m c (ix1 r) = BitVec.ofNat 32 (lab c r).val)
    (hX : ∀ c i, ∃ r : ℝ, Xa m c i = r) (hW : ∀ c i, ∃ r : ℝ, Wa m c i = r) :
    θ_run defs (onTc (τ := τ) (main (F := Ideal))) ⟨m, fun _ => 0, ρ⟩ fun r => ∀ c : Dev nD,
      r.2.mem ((c.tc : Thread nD τ).loc main_v3) = (fun _ => loss (Xa m c) (Wa m c) (lab c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v3 (Pipeline.mem_restRefs_of main_v3 (by decide) (by decide))).trans
          (tail_eq m c (lab c) (hlab c) (hX c) (hW c)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.KernelIdeal.Final

end
-- ==== Proof.PreDecode.lean ====
/-
  What the precondition says, entry by entry: every embedding and every class weight is a real
  number, and every label word is, read unsigned, below 100000.
-/
import proofs.«402029_j82085414961612_1_alg».proof.Pre_finite_inputs
import proofs.«402029_j82085414961612_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx

/-- The scalar shape has one index. -/
instance subsingleton_scalar_idx : Subsingleton Cert.Pre_finite_inputs.S_.Idx :=
  ⟨fun _ _ => funext fun d => d.elim0⟩

/-- The f32 pattern 0x7F800000 denotes +∞. -/
theorem inf_pattern : Ideal.ofBits .f32 0x7F800000#32 = (⊤ : EReal) := by
  simp [Ideal.ofBits, Ideal.ieee]

/-- An extended real whose absolute value max x (−x) lies strictly below +∞ is a real number:
    x = +∞ gives max = +∞, and x = −∞ gives −x = +∞, so max = +∞ again. -/
theorem real_of_abs_lt_top (x : EReal) (h : max x (-x) < ⊤) : ∃ r : ℝ, x = r := by
  induction x using EReal.rec with
  | bot => simp at h
  | coe r => exact ⟨r, rfl⟩
  | top => simp at h

/-- The printed element test "|x| < +∞" coming out 1 says x is a real. -/
theorem real_of_cmp (x : EReal)
    (h : Ideal.cmp .olt (max x (-x)) (Ideal.ofBits .f32 0x7F800000#32) = 1#1) : ∃ r : ℝ, x = r := by
  rw [inf_pattern] at h
  unfold Ideal.cmp at h
  rw [StableHlo.Predicate.ofBool_eq_one_iff] at h
  exact real_of_abs_lt_top x (of_decide_eq_true h)

/-- A 32-bit word that is, read signed, at least 0 and below 100000 is, read unsigned, below 100000. -/
theorem toNat_lt_of_signed (w : BitVec 32)
    (h0 : IntOp.cmpi .sge w 0#32 = 1#1) (h1 : IntOp.cmpi .slt w 100000#32 = 1#1) : w.toNat < 100000 := by
  unfold IntOp.cmpi at h0 h1
  rw [StableHlo.Predicate.ofBool_eq_one_iff] at h0 h1
  have c0 : (0#32 : BitVec 32).toInt = 0 := by decide
  have c1 : (100000#32 : BitVec 32).toInt = 100000 := by decide
  simp only [BitVec.sle, BitVec.slt, c0, c1, decide_eq_true_eq] at h0 h1
  rw [BitVec.toInt_eq_toNat_cond] at h0 h1
  split at h0 <;> omega

theorem decode [Cert.Pre_finite_inputs.Facts]
    (X : FVec Ideal Cert.Pre_finite_inputs.S1024x512 .f32) (W : FVec Ideal Cert.Pre_finite_inputs.S100000x512 .f32)
    (Lw : IVec Cert.Pre_finite_inputs.S1024 32)
    (h : Cert.Pre_finite_inputs.fn (F := Ideal) X W Lw = fun _ => 1#1) :
    (∀ i, ∃ r : ℝ, X i = r) ∧ (∀ i, ∃ r : ℝ, W i = r) ∧ (∀ r : Fin 1024, (Lw (ix1 r)).toNat < 100000) := by
  have h' := congrFun h ValueIdx.ix0
  dsimp only [Cert.Pre_finite_inputs.fn, Cert.Pre_finite_inputs.fn_part1] at h'
  -- the four conjuncts of the printed "and"
  obtain ⟨h123, h4⟩ := IntOp.andi_eq_one.1 h'
  obtain ⟨h12, h3⟩ := IntOp.andi_eq_one.1 h123
  obtain ⟨h1, h2⟩ := IntOp.andi_eq_one.1 h12
  refine ⟨fun i => ?_, fun i => ?_, fun r => ?_⟩
  · exact real_of_cmp (X i) (Host.reduce_andi_all _ _ _ _ _ h1 i)
  · exact real_of_cmp (W i) (Host.reduce_andi_all _ _ _ _ _ h2 i)
  · exact toNat_lt_of_signed (Lw (ix1 r)) (Host.reduce_andi_all _ _ _ _ _ h3 (ix1 r))
      (Host.reduce_andi_all _ _ _ _ _ h4 (ix1 r))

end Cert.PreDecode

end
-- ==== Proof.RefValue.lean ====
/-
  What the reference computes is the ArcFace loss of the specification: its logit matrix is the
  specification's entry by entry; its log-softmax picked at the label and negated is the row's
  loss; its mean is the mean.
-/
import proofs.«402029_j82085414961612_1_alg».proof.Proof.RefRead
import proofs.«402029_j82085414961612_1_alg».proof.Proof.Spec
import proofs.«402029_j82085414961612_1_alg».proof.Proof.Algebra
import Idealize.ShloMosaic.PureOps.Reduce
import Idealize.ShloMosaic.Lib.StableHlo.Predicate

noncomputable section

namespace Cert.ReferenceIdeal.RefValue

open Cert.ReferenceIdeal Cert.ReferenceIdeal.Gen Cert.ReferenceIdeal.ReadP Cert.ArcFace
open Idealize.ShloMosaic Idealize.ShloMosaic.ValueIdx

/-! ## Words of class numbers

A class number is below 100000, so its 32-bit word reads the same signed and unsigned: it is not
negative, it is at most 99999, and two such words are equal exactly when the numbers are. -/

theorem toNat_word (n : Nat) (h : n < 100000) : (BitVec.ofNat 32 n).toNat = n := by
  rw [BitVec.toNat_ofNat]; omega

theorem word_slt_zero (n : Nat) (h : n < 100000) : IntOp.cmpi .slt (BitVec.ofNat 32 n) 0#32 = 0#1 := by
  apply eq_zero_of_ne_one
  intro h1
  have h2 := (StableHlo.Predicate.slt_iff_toNat (a := BitVec.ofNat 32 n) (b := 0#32)
    (by rw [toNat_word n h]; omega) (by decide)).1 h1
  exact absurd h2 (by simp)

theorem word_sge_zero (n : Nat) (h : n < 100000) : IntOp.cmpi .sge (BitVec.ofNat 32 n) 0#32 = 1#1 :=
  (StableHlo.Predicate.sge_iff_toNat (a := BitVec.ofNat 32 n) (b := 0#32)
    (by rw [toNat_word n h]; omega) (by decide)).2 (by simp)

theorem word_sle_last (n : Nat) (h : n < 100000) : IntOp.cmpi .sle (BitVec.ofNat 32 n) 99999#32 = 1#1 :=
  (StableHlo.Predicate.sle_iff_toNat (a := BitVec.ofNat 32 n) (b := 99999#32)
    (by rw [toNat_word n h]; omega) (by decide)).2 (by rw [toNat_word n h]; show n ≤ 99999; omega)

theorem word_eq_iff (a b : Nat) (ha : a < 100000) (hb : b < 100000) :
    IntOp.cmpi .eq (BitVec.ofNat 32 a) (BitVec.ofNat 32 b) = 1#1 ↔ a = b := by
  rw [StableHlo.Predicate.cmpi_eq_iff]
  constructor
  · intro e
    have := congrArg BitVec.toNat e
    rwa [toNat_word a ha, toNat_word b hb] at this
  · intro e; rw [e]

theorem word_toInt_toNat (n : Nat) (h : n < 100000) : (BitVec.ofNat 32 n).toInt.toNat = n := by
  rw [StableHlo.Predicate.toInt_ofNat_small n (by omega)]; exact Int.toNat_natCast n

/-! ## A sum over a rank-1 index set is the sum over its coordinate -/

def idxEquiv1 {n : Nat} : (⟨1, ![n]⟩ : Shape).Idx ≃ Fin n where
  toFun i := i 0
  invFun := ix1
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A maximum-reduce along the second axis of a rectangle, read at a row -/

/-- Row `r` with column `k` put back is (r, k). -/
theorem lift_row {n m : Nat} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- The reduce with a maximum body along the columns is, at row `r`, the fold of the maximum over the row from the
    initial value. -/
theorem reduce_max_row {n m : Nat} (x : FVec Ideal ⟨2, ![n, m]⟩ .f32) (init : (⟨0, ![]⟩ : Shape).Idx → Ideal .f32)
    (h' : (⟨2, ![n, m]⟩ : Shape).ReducesTo [1] (⟨1, ![n]⟩ : Shape))
    (h : (⟨2, ![n, m]⟩ : Shape).Reduces [1] (⟨1, ![n]⟩ : Shape)) (hu : 0 < (⟨0, ![]⟩ : Shape).numel) (r : Fin n) :
    Host.reduce FloatOps.maximumf x init h' hu (ix1 r)
      = (Finset.univ : Finset (Fin m)).fold max (init (Shape.Idx.first hu)) (fun c => x (ix2 r c)) := by
  rw [Host.reduce_eq_fold_single FloatOps.maximumf x _ h' h hu]
  have hf : (x ∘ h.lift (ix1 r)) = fun k : Fin m => x (ix2 r k) := funext fun k => congrArg x (lift_row h r k)
  exact congrArg (fun f => Finset.fold max (init (Shape.Idx.first hu)) f (Finset.univ : Finset (Fin m))) hf

/-! ## An and-reduce along a unit axis -/

theorem lift_unit {n : Nat} (h : (⟨3, ![n, 1, 1]⟩ : Shape).Reduces [2] (⟨2, ![n, 1]⟩ : Shape)) (r : Fin n) (z : Fin 1)
    (k : Fin ((⟨3, ![n, 1, 1]⟩ : Shape).size 2)) : h.lift (ix2 r z) k = ix3 r z (⟨k.val, k.isLt⟩ : Fin 1) := by
  funext c; apply Fin.ext
  fin_cases c <;> rfl

theorem fold_and_unit : (Finset.univ : Finset (Fin 1)).fold IntOp.andi (1#1 : BitVec 1) (fun _ => 1#1) = 1#1 := by
  rw [Finset.univ_unique, Finset.fold_singleton]; rfl

/-- From the bit 1, the and over a unit axis of a mask whose one bit there is 1 is 1. -/
theorem reduce_and_unit {n : Nat} (x : IVec ⟨3, ![n, 1, 1]⟩ 1) (init : (⟨0, ![]⟩ : Shape).Idx → BitVec 1)
    (h' : (⟨3, ![n, 1, 1]⟩ : Shape).ReducesTo [2] (⟨2, ![n, 1]⟩ : Shape))
    (h : (⟨3, ![n, 1, 1]⟩ : Shape).Reduces [2] (⟨2, ![n, 1]⟩ : Shape)) (hu : 0 < (⟨0, ![]⟩ : Shape).numel) (r : Fin n)
    (hx : x (ix3 r 0 0) = 1#1) (hi : init (Shape.Idx.first hu) = 1#1) :
    Host.reduce IntOp.andi x init h' hu (ix2 r 0) = 1#1 := by
  rw [Host.reduce_eq_fold_single IntOp.andi x _ h' h hu]
  have hf : (x ∘ h.lift (ix2 r 0)) = fun _ => 1#1 := funext fun k => by
    show x (h.lift (ix2 r 0) k) = 1#1
    rw [lift_unit h r 0 k]
    have : (⟨k.val, k.isLt⟩ : Fin 1) = 0 := Subsingleton.elim _ _
    rw [this, hx]
  rw [hf, hi]
  exact fold_and_unit

/-! ## The gather of a take along the second axis, read at a row

Operand [R × N], start indices [R × 1 × 1], result [R × 1]: axis 0 of the operand is a batching axis paired with axis 0
of the start indices, axis 1 is collapsed and start-indexed. Result (r, 0) reads the operand at row `r` and at the
column the start index names, read signed and clamped into the row. -/

abbrev rowDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

theorem gather_row_apply {α : Type} {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (rowDims R N wf) x idx (ix2 r 0)
      = x (ix2 r (⟨min (idx (ix3 r 0 0)).toInt.toNat (N - 1), by omega⟩ : Fin N)) := by
  unfold Host.gather
  congr 1
  funext a
  refine Fin.ext ?_
  have hj0 : ∀ X : Fin 2, X.val = 0 → ((ix2 r (0 : Fin 1) : (⟨2, ![R, 1]⟩ : Shape).Idx) X).val = r.val := by
    intro X hX; obtain rfl : X = 0 := Fin.ext hX; rfl
  match a with
  | ⟨0, _⟩ =>
    -- the batching axis: no start, no offset, the result's row
    show (rowDims R N wf).start (ix2 r 0) idx 0 + (rowDims R N wf).batchCoord (ix2 r 0) 0
      + (rowDims R N wf).offCoord (ix2 r 0) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (rowDims R N wf).operandBatchingDims from List.mem_singleton.mpr rfl)]
    unfold GatherDims.siCoord
    simp only [Fin.val_cast]
    refine hj0 _ ?_
    rfl
  | ⟨1, _⟩ =>
    -- the collapsed axis: the clamped start index, no batch coordinate, no offset
    show (rowDims R N wf).start (ix2 r 0) idx 1 + (rowDims R N wf).batchCoord (ix2 r 0) 1
      + (rowDims R N wf).offCoord (ix2 r 0) 1 = _
    rw [GatherDims.batchCoord_eq_zero _ _ _ (by simp),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowDims R N wf).startIndexMap from List.mem_singleton.mpr rfl)]
    have hsi : (rowDims R N wf).siIdx (ix2 r 0) ⟨List.idxOf (1 : Fin 2) (rowDims R N wf).startIndexMap,
        List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    rw [hsi]
    rfl

/-! ## The reference, stage by stage, read at a row -/

section Stages

variable (X : (⟨S1024x512, .f32⟩ : BufTy).Contents (Elt Ideal)) (W : (⟨S100000x512, .f32⟩ : BufTy).Contents (Elt Ideal))
  (Lw : (⟨S1024, .i32⟩ : BufTy).Contents (Elt Ideal)) (lab : Fin 1024 → Fin 100000)

/-! ### The norms, the normalised rows, the cosine -/

/-- The embeddings' clipped norm at row `r`. -/
theorem normX (r : Fin 1024) (z : Fin 1) : val_main_v2 (F := Ideal) X (ix2 r z) = clipNorm (rowOf X r) := by
  rw [val_main_v2_apply, val_main_v0_apply, val_main_call0_v2_apply, val_main_call0_v1_apply, val_main_v1_apply,
    val_main_cst_apply, val_main_call0_cst_apply]
  show max (Ideal.sqrt (Ideal.ofBits .f32 0x00000000#32
    + ∑ k : Fin 512, val_main_call0_v0 (F := Ideal) X (idx_main_call0_v1 (idx_main_call0_v2 (ix2 r z)) k))) kEps = _
  rw [Ideal.ofBits_zero_f32, zero_add]
  unfold clipNorm
  refine congrArg (fun s => max (Ideal.sqrt s) kEps) (Finset.sum_congr rfl fun k _ => ?_)
  rw [val_main_call0_v0_apply]
  have e : idx_main_call0_v1 (idx_main_call0_v2 (ix2 r z)) k = ix2 r k :=
    funext fun a => match a with | ⟨0, _⟩ => rfl | ⟨1, _⟩ => rfl
  rw [e]; rfl

/-- The class weights' clipped norm at row `c`. -/
theorem normW (c : Fin 100000) (z : Fin 1) : val_main_v7 (F := Ideal) W (ix2 c z) = clipNorm (rowOf W c) := by
  rw [val_main_v7_apply, val_main_v5_apply, val_main_call1_v2_apply, val_main_call1_v1_apply, val_main_v6_apply,
    val_main_cst_0_apply, val_main_call1_cst_apply]
  show max (Ideal.sqrt (Ideal.ofBits .f32 0x00000000#32
    + ∑ k : Fin 512, val_main_call1_v0 (F := Ideal) W (idx_main_call1_v1 (idx_main_call1_v2 (ix2 c z)) k))) kEps = _
  rw [Ideal.ofBits_zero_f32, zero_add]
  unfold clipNorm
  refine congrArg (fun s => max (Ideal.sqrt s) kEps) (Finset.sum_congr rfl fun k _ => ?_)
  rw [val_main_call1_v0_apply]
  have e : idx_main_call1_v1 (idx_main_call1_v2 (ix2 c z)) k = ix2 c k :=
    funext fun a => match a with | ⟨0, _⟩ => rfl | ⟨1, _⟩ => rfl
  rw [e]; rfl

/-- A normalised embedding entry. -/
theorem v4_at (r : Fin 1024) (k : Fin 512) :
    val_main_v4 (F := Ideal) X (ix2 r k) = Ideal.div (X (ix2 r k)) (clipNorm (rowOf X r)) := by
  rw [val_main_v4_apply, val_main_v3_apply]
  have e : idx_main_v3 (ix2 r k) = ix2 r (0 : Fin 1) := funext fun a => match a with | ⟨0, _⟩ => rfl | ⟨1, _⟩ => rfl
  rw [e, normX]; rfl

/-- A normalised class-weight entry, read through the transpose. -/
theorem v10_at (k : Fin 512) (c : Fin 100000) :
    val_main_v10 (F := Ideal) W (ix2 k c) = Ideal.div (W (ix2 c k)) (clipNorm (rowOf W c)) := by
  rw [val_main_v10_apply]
  have e0 : idx_main_v10 (ix2 k c) = ix2 c k := funext fun a => match a with | ⟨0, _⟩ => rfl | ⟨1, _⟩ => rfl
  rw [e0, val_main_v9_apply, val_main_v8_apply]
  have e : idx_main_v8 (ix2 c k) = ix2 c (0 : Fin 1) := funext fun a => match a with | ⟨0, _⟩ => rfl | ⟨1, _⟩ => rfl
  rw [e, normW]; rfl

/-- The product of the normalised matrices is the cosine, entry by entry. -/
theorem v11_at (r : Fin 1024) (c : Fin 100000) :
    val_main_v11 (F := Ideal) X W (ix2 r c) = cosine (rowOf X r) (rowOf W c) := by
  rw [val_main_v11_apply]
  unfold cosine
  refine Finset.sum_congr rfl fun k _ => ?_
  have el : lidx_main_v11 (ix2 r c) k = ix2 r k := funext fun a => match a with | ⟨0, _⟩ => rfl | ⟨1, _⟩ => rfl
  have er : ridx_main_v11 (ix2 r c) k = ix2 k c := funext fun a => match a with | ⟨0, _⟩ => rfl | ⟨1, _⟩ => rfl
  rw [el, er, v4_at, v10_at]

/-! ### The margin, the one-hot blend, the scale -/

/-- The margin branch chosen by the threshold. -/
theorem v26_at (r : Fin 1024) (c : Fin 100000) :
    val_main_v26 (F := Ideal) X W (ix2 r c) = margin (cosine (rowOf X r) (rowOf W c)) := by
  simp only [val_main_v26_apply, val_main_v23_apply, val_main_v21_apply, val_main_v25_apply, val_main_v18_apply,
    val_main_v20_apply, val_main_v16_apply, val_main_v15_apply, val_main_call2_v2_apply, val_main_v14_apply,
    val_main_v12_apply, val_main_v22_apply, val_main_cst_6_apply, val_main_v17_apply, val_main_cst_4_apply,
    val_main_v19_apply, val_main_cst_5_apply, val_main_v24_apply, val_main_cst_7_apply, val_main_call2_v4_apply,
    val_main_call2_v3_apply, val_main_cst_3_apply, val_main_call2_v1_apply, val_main_call2_v0_apply,
    val_main_cst_2_apply, val_main_v13_apply, val_main_cst_1_apply, v11_at]
  rfl

variable (hlab : ∀ r : Fin 1024, Lw (ix1 r) = BitVec.ofNat 32 (lab r).val)
include hlab

/-- The one-hot bit: the label's word against the column's. -/
theorem onehot_at (r : Fin 1024) (c : Fin 100000) :
    val_main_call4_v4 (F := Ideal) Lw (ix2 r c)
      = IntOp.cmpi .eq (BitVec.ofNat 32 (lab r).val) (BitVec.ofNat 32 c.val) := by
  rw [val_main_call4_v4_apply, val_main_call4_v2_apply, val_main_call4_v0_apply, val_main_call4_v3_apply,
    val_main_call4_v1_apply]
  have e : idx_main_call4_v0 (idx_main_call4_v2 (ix2 r c)) = ix1 r := funext fun a => match a with | ⟨0, _⟩ => rfl
  rw [e, hlab]

/-- The reference's logit matrix is the specification's. -/
theorem v34_at (r : Fin 1024) (c : Fin 100000) :
    val_main_v34 (F := Ideal) X W Lw (ix2 r c) = logits X W lab r c := by
  simp only [val_main_v34_apply, val_main_v33_apply, val_main_cst_9_apply, val_main_v32_apply, val_main_v28_apply,
    val_main_v31_apply, val_main_v30_apply, val_main_v29_apply, val_main_cst_8_apply, val_main_v27_apply]
  rw [onehot_at Lw lab hlab, v26_at, v11_at]
  refine (blend_eq (IntOp.cmpi .eq (BitVec.ofNat 32 (lab r).val) (BitVec.ofNat 32 c.val))
    (margin (cosine (rowOf X r) (rowOf W c))) (cosine (rowOf X r) (rowOf W c))).trans ?_
  unfold logits logit
  refine congrArg (fun v => kScale * v) ?_
  by_cases h : c = lab r
  · rw [if_pos ((word_eq_iff _ _ (lab r).isLt c.isLt).2 (congrArg Fin.val h.symm)), if_pos (decide_eq_true h)]
  · have hb : ¬ IntOp.cmpi .eq (BitVec.ofNat 32 (lab r).val) (BitVec.ofNat 32 c.val) = 1#1 := fun e =>
      h (Fin.ext ((word_eq_iff _ _ (lab r).isLt c.isLt).1 e).symm)
    rw [if_neg hb, if_neg (by simpa using h)]

/-! ### The log-softmax -/

/-- The row maximum as the reference spells it: from −∞, then once more against −∞. -/
def refMax (l : Fin 100000 → EReal) : EReal :=
  max kNegInf ((Finset.univ : Finset (Fin 100000)).fold max kNegInf l)

/-- The log-softmax of a row at a column as the reference spells it. -/
def refLsm (l : Fin 100000 → EReal) (c : Fin 100000) : EReal :=
  (l c - refMax l) - Ideal.log (kZero + ∑ c', Ideal.exp (l c' - refMax l))

/-- The reference's row maximum. -/
theorem rowmax_at (r : Fin 1024) :
    val_main_call5_v2 (F := Ideal) X W Lw (ix1 r) = refMax fun c => logits X W lab r c := by
  rw [val_main_call5_v2_apply, val_main_call5_v1_apply, val_main_call5_cst_0_apply]
  unfold val_main_call5_v0
  rw [reduce_max_row (n := 1024) (m := 100000) (val_main_v34 (F := Ideal) X W Lw) (val_main_call5_cst (F := Ideal))
    reducesTo_S1024x100000_S1024_d1 (by decide) h_S_ r, val_main_call5_cst_apply]
  have hf : (fun c : Fin 100000 => val_main_v34 (F := Ideal) X W Lw (ix2 r c)) = fun c => logits X W lab r c :=
    funext fun c => v34_at X W Lw lab hlab r c
  rw [hf]
  rfl

/-- A logit less its row's maximum. -/
theorem shifted_at (r : Fin 1024) (c : Fin 100000) :
    val_main_call5_v5 (F := Ideal) X W Lw (ix2 r c)
      = logits X W lab r c - refMax fun c => logits X W lab r c := by
  rw [val_main_call5_v5_apply, val_main_call5_v4_apply, val_main_call5_v3_apply]
  have e : idx_main_call5_v3 (idx_main_call5_v4 (ix2 r c)) = ix1 r := funext fun a => match a with | ⟨0, _⟩ => rfl
  rw [e, rowmax_at X W Lw lab hlab, v34_at X W Lw lab hlab]
  rfl

/-- The row's sum of exponentials. -/
theorem sumexp_at (r : Fin 1024) :
    val_main_call5_v7 (F := Ideal) X W Lw (ix1 r)
      = kZero + ∑ c : Fin 100000, Ideal.exp (logits X W lab r c - refMax fun c => logits X W lab r c) := by
  rw [val_main_call5_v7_apply, val_main_call5_cst_1_apply]
  show kZero + _ = kZero + _
  refine congrArg (fun s => kZero + s) (Finset.sum_congr rfl fun k _ => ?_)
  rw [val_main_call5_v6_apply]
  have e : idx_main_call5_v7 (ix1 r) k = ix2 r k := funext fun a => match a with | ⟨0, _⟩ => rfl | ⟨1, _⟩ => rfl
  rw [e, shifted_at X W Lw lab hlab]
  rfl

/-- The reference's log-softmax matrix. -/
theorem v35_at (r : Fin 1024) (c : Fin 100000) :
    val_main_v35 (F := Ideal) X W Lw (ix2 r c) = refLsm (fun c => logits X W lab r c) c := by
  rw [val_main_v35_apply, val_main_call5_v10_apply, val_main_call5_v9_apply, val_main_call5_v8_apply]
  have e : idx_main_call5_v8 (idx_main_call5_v10 (ix2 r c)) = ix1 r := funext fun a => match a with | ⟨0, _⟩ => rfl
  rw [e, sumexp_at X W Lw lab hlab, shifted_at X W Lw lab hlab]
  unfold refLsm
  simp only [Ideal.subf_def, Ideal.hostUnary_log_def]

/-! ### The pick at the label -/

/-- The start index of row `r`: the label's word (it is not negative, so nothing is added). -/
theorem start_at (r : Fin 1024) :
    val_main_call6_v5 (F := Ideal) Lw (ix3 r (0 : Fin 1) (0 : Fin 1)) = BitVec.ofNat 32 (lab r).val := by
  rw [val_main_call6_v5_apply]
  have e : idx_main_call6_v5 (ix3 r (0 : Fin 1) (0 : Fin 1)) = ix2 r (0 : Fin 1) :=
    funext fun a => match a with
      | ⟨0, _⟩ => Fin.ext (by show ((r.val * 1 + 0) * 1 + 0) / 1 = r.val; omega)
      | ⟨1, _⟩ => rfl
  rw [e, val_main_call6_v4_apply, val_main_call6_v1_apply, val_main_v36_apply, val_main_call6_v0_apply,
    val_main_call6_c_apply]
  have e2 : idx_main_v36 (ix2 r (0 : Fin 1)) = ix1 r := funext fun a => match a with | ⟨0, _⟩ => rfl
  rw [e2, hlab, word_slt_zero _ (lab r).isLt, select_zero]

/-- The in-range mask is set in every row. -/
theorem mask_at (r : Fin 1024) : val_main_call6_v12 (F := Ideal) Lw (ix2 r (0 : Fin 1)) = 1#1 := by
  unfold val_main_call6_v12
  refine reduce_and_unit (n := 1024) (val_main_call6_v11 (F := Ideal) Lw) (val_main_call6_c_3 (F := Ideal))
    reducesTo_S1024x1x1_S1024x1_d2 (by decide) h_S_ r ?_ ?_
  · rw [val_main_call6_v11_apply, val_main_call6_v7_apply, val_main_call6_v10_apply, start_at Lw lab hlab,
      val_main_call6_v6_apply, val_main_call6_c_2_apply, val_main_call6_v9_apply, val_main_call6_v8_apply,
      val_main_call6_c_1_apply, word_sge_zero _ (lab r).isLt, word_sle_last _ (lab r).isLt]
    rfl
  · rw [val_main_call6_c_3_apply]

/-- The gather reads the label's column. -/
theorem gather_at (r : Fin 1024) :
    val_main_call6_v13 (F := Ideal) X W Lw (ix2 r (0 : Fin 1)) = val_main_v35 (F := Ideal) X W Lw (ix2 r (lab r)) := by
  unfold val_main_call6_v13
  have hd : gather_S1024x100000_S1024x1x1_S1024x1_n_1_0_0_1_2_11
      = rowDims 1024 100000 gather_S1024x100000_S1024x1x1_S1024x1_n_1_0_0_1_2_11.wf := rfl
  rw [hd]
  refine (gather_row_apply (R := 1024) (N := 100000) (by decide) _ (val_main_v35 (F := Ideal) X W Lw)
    (val_main_call6_v5 (F := Ideal) Lw) r).trans ?_
  refine congrArg (fun k => val_main_v35 (F := Ideal) X W Lw (ix2 r k)) (Fin.ext ?_)
  show min (val_main_call6_v5 (F := Ideal) Lw (ix3 r (0 : Fin 1) (0 : Fin 1))).toInt.toNat (100000 - 1) = (lab r).val
  rw [start_at Lw lab hlab, word_toInt_toNat _ (lab r).isLt]
  have := (lab r).isLt
  omega

/-- Taking along the class axis at the label reads the log-softmax there. -/
theorem v37_at (r : Fin 1024) :
    val_main_v37 (F := Ideal) X W Lw (ix2 r (0 : Fin 1)) = refLsm (fun c => logits X W lab r c) (lab r) := by
  rw [val_main_v37_apply, mask_at Lw lab hlab, select_one, gather_at X W Lw lab hlab, v35_at X W Lw lab hlab]

/-! ### The row's loss and the mean -/

variable (hX : ∀ i, ∃ r : ℝ, X i = r) (hW : ∀ i, ∃ r : ℝ, W i = r)
include hX hW

/-- Minus the picked log-softmax is the row's loss. -/
theorem v39_at (r : Fin 1024) :
    val_main_v39 (F := Ideal) X W Lw (ix1 r)
      = ((rowLoss (fun c => (logits X W lab r c).toReal) (lab r) : ℝ) : EReal) := by
  rw [val_main_v39_apply, val_main_v38_apply]
  have e : idx_main_v38 (ix1 r) = ix2 r (0 : Fin 1) :=
    funext fun a => match a with
      | ⟨0, _⟩ => Fin.ext (by show r.val / 1 = r.val; omega)
      | ⟨1, _⟩ => rfl
  rw [e, v37_at X W Lw lab hlab]
  have hl : (fun c => logits X W lab r c) = fun c => (((logits X W lab r c).toReal : ℝ) : EReal) :=
    funext fun c => logits_finite X W lab hX hW r c
  rw [hl]
  exact neg_log_softmax_eq (fun c => (logits X W lab r c).toReal) (lab r)

end Stages

/-- With finite inputs and every label word the word of a class number, the reference's last stage
    is the specification's loss. -/
theorem result_eq (X : (⟨S1024x512, .f32⟩ : BufTy).Contents (Elt Ideal)) (W : (⟨S100000x512, .f32⟩ : BufTy).Contents (Elt Ideal))
    (Lw : (⟨S1024, .i32⟩ : BufTy).Contents (Elt Ideal)) (lab : Fin 1024 → Fin 100000)
    (hlab : ∀ r : Fin 1024, Lw (ix1 r) = BitVec.ofNat 32 (lab r).val)
    (hX : ∀ i, ∃ r : ℝ, X i = r) (hW : ∀ i, ∃ r : ℝ, W i = r) :
    val_main_v41 (F := Ideal) X W Lw = fun _ => loss X W lab := by
  funext i
  rw [val_main_v41_apply, val_main_v40_apply, val_main_cst_10_apply, val_main_cst_11_apply, sum_idx1]
  unfold loss
  show Ideal.div (kZero + ∑ a : Fin 1024, val_main_v39 (F := Ideal) X W Lw (ix1 a)) kBatch = _
  refine congrArg (fun s => Ideal.div (kZero + s) kBatch) (Finset.sum_congr rfl fun r _ => ?_)
  exact v39_at X W Lw lab hlab hX hW r

end Cert.ReferenceIdeal.RefValue

end
-- ==== Proof.lean ====
/-
  The kernel computes the ArcFace loss — cosine logits of L2-normalised embeddings against
  L2-normalised class weights, an angular margin at the label's column, scale 64, softmax
  cross-entropy, mean over the batch — one tile of 1000 classes at a time, carrying per row a
  running maximum, a running sum of exponentials rescaled to it, and a running pick of the label's
  logit; the reference computes the whole 1024 × 100000 logit matrix, its log-softmax, and picks the
  label's entry. Over the extended reals, with finite inputs and every label a class number, both end
  at the same number:

      mean over rows r of  log Σ_c exp(z_rc − M_r) + M_r − z_{r, label r}.

  The three frames are the generated frame certificates (the reference's is its run with the result
  dropped). The idealization rewrote nothing. For the equivalence: the precondition gives real
  inputs and labels below 100000; the kernel's run ends at the specification's loss (the induction
  over the grid and the cover of the output array), and so does the reference's last stage.
-/
import proofs.«402029_j82085414961612_1_alg».proof.Defs
import proofs.«402029_j82085414961612_1_alg».proof.Proof.Gen.Kernel
import proofs.«402029_j82085414961612_1_alg».proof.Proof.Gen.Kernel.Skeleton
import proofs.«402029_j82085414961612_1_alg».proof.Proof.Gen.Kernel.Launch
import proofs.«402029_j82085414961612_1_alg».proof.Proof.Gen.Kernel.Points
import proofs.«402029_j82085414961612_1_alg».proof.Proof.Gen.Kernel.Frame
import proofs.«402029_j82085414961612_1_alg».proof.Proof.Gen.KernelIdeal
import proofs.«402029_j82085414961612_1_alg».proof.Proof.Gen.KernelIdeal.Skeleton
import proofs.«402029_j82085414961612_1_alg».proof.Proof.Gen.KernelIdeal.Launch
import proofs.«402029_j82085414961612_1_alg».proof.Proof.Gen.KernelIdeal.Points
import proofs.«402029_j82085414961612_1_alg».proof.Proof.Gen.KernelIdeal.Frame
import proofs.«402029_j82085414961612_1_alg».proof.Proof.Gen.ReferenceIdeal
import proofs.«402029_j82085414961612_1_alg».proof.Proof.Gen.Pre_finite_inputs
import proofs.«402029_j82085414961612_1_alg».proof.Proof.Final
import proofs.«402029_j82085414961612_1_alg».proof.Proof.PreDecode
import proofs.«402029_j82085414961612_1_alg».proof.Proof.RefValue
import Idealize.ShloMosaic.Adequacy
import Idealize.ShloMosaic.Init

noncomputable section

namespace Cert.Proof

open Idealize.ShloMosaic Idealize.SL.Sem Idealize.ShloMosaic.ValueIdx Cert.ArcFace

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both programs end at the specification's loss of the launched arrays. -/
theorem algebraic : Cert.algebraic_KernelIdeal_ReferenceIdeal := by
  intro m ρ m' ρ' hpre hagree
  have hd := fun c => Cert.PreDecode.decode _ _ _ (hpre c)
  let lab : Dev Cert.KernelIdeal.nD → Fin 1024 → Fin 100000 :=
    fun c r => ⟨(Cert.KernelIdeal.Inv.La m c (ix1 r)).toNat, (hd c).2.2 r⟩
  have hlab : ∀ c r, Cert.KernelIdeal.Inv.La m c (ix1 r) = BitVec.ofNat 32 (lab c r).val := fun c r =>
    BitVec.eq_of_toNat_eq (by rw [BitVec.toNat_ofNat]; exact (Nat.mod_eq_of_lt (Cert.KernelIdeal.Inv.La m c (ix1 r)).isLt).symm)
  refine ⟨fun c => fun _ => loss (Cert.KernelIdeal.Inv.Xa m c) (Cert.KernelIdeal.Inv.Wa m c) (lab c),
    Cert.KernelIdeal.Final.run m ρ lab hlab (fun c => (hd c).1) (fun c => (hd c).2.1), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v41_eq, (hagree c).1, (hagree c).2.1, (hagree c).2.2]
  exact Cert.ReferenceIdeal.RefValue.result_eq _ _ _ (lab c) (hlab c) (hd c).1 (hd c).2.1

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
